-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v60_0)) (v2 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v60_0) = v1 c
          ∧ r.2.mem ((c.tc : Thread Cert.KernelIdeal.nD Cert.KernelIdeal.τ).loc Cert.KernelIdeal.main_v60_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x32 : Shape := ⟨2, ![100000, 32]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S100000x32 .f32) (main_arg3 : FVec F S128x64 .f32) (main_arg4 : FVec F S64 .f32) (main_arg5 : FVec F S64x32 .f32) (main_arg6 : FVec F S32 .f32) (main_arg7 : FVec F S64x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S100000x32 : Shape := ⟨2, ![100000, 32]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S20000x128 : Shape := ⟨2, ![20000, 128]⟩
abbrev S20000x64 : Shape := ⟨2, ![20000, 64]⟩
abbrev S1700000x64 : Shape := ⟨2, ![1700000, 64]⟩
abbrev S1x64 : Shape := ⟨2, ![1, 64]⟩
abbrev S20000 : Shape := ⟨1, ![20000]⟩
abbrev S20000x1 : Shape := ⟨2, ![20000, 1]⟩
abbrev S64x64 : Shape := ⟨2, ![64, 64]⟩
abbrev S5000x64 : Shape := ⟨2, ![5000, 64]⟩
abbrev S5000x32 : Shape := ⟨2, ![5000, 32]⟩
abbrev S1605632 : Shape := ⟨1, ![1605632]⟩
abbrev S1605632x1 : Shape := ⟨2, ![1605632, 1]⟩
abbrev S1605632x32 : Shape := ⟨2, ![1605632, 32]⟩
abbrev S8192x32 : Shape := ⟨2, ![8192, 32]⟩
abbrev S8192 : Shape := ⟨1, ![8192]⟩

abbrev nBuf : Space → Nat
  | .hbm => 111
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x32, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S100000x32, .f32⟩
  | .hbm, ⟨83, _⟩ => ⟨S100000x32, .f32⟩
  | .hbm, ⟨84, _⟩ => ⟨S100000x32, .f32⟩
  | .hbm, ⟨85, _⟩ => ⟨S_, .i32⟩
  | .hbm, ⟨86, _⟩ => ⟨S_, .i32⟩
  | .hbm, ⟨87, _⟩ => ⟨S1605632, .i32⟩
  | .hbm, ⟨88, _⟩ => ⟨S_, .i32⟩
  | .hbm, ⟨89, _⟩ => ⟨S_, .i32⟩
  | .hbm, ⟨90, _⟩ => ⟨S1605632, .i32⟩
  | .hbm, ⟨91, _⟩ => ⟨S_, .i32⟩
  | .hbm, ⟨92, _⟩ => ⟨S1605632, .i32⟩
  | .hbm, ⟨93, _⟩ => ⟨S1605632, .i1⟩
  | .hbm, ⟨94, _⟩ => ⟨S_, .i32⟩
  | .hbm, ⟨95, _⟩ => ⟨S1605632, .i32⟩
  | .hbm, ⟨96, _⟩ => ⟨S1605632, .i32⟩
  | .hbm, ⟨97, _⟩ => ⟨S1605632, .i32⟩
  | .hbm, ⟨98, _⟩ => ⟨S1605632x1, .i32⟩
  | .hbm, ⟨99, _⟩ => ⟨S1605632x32, .f32⟩
  | .hbm, ⟨100, _⟩ => ⟨S_, .i32⟩
  | .hbm, ⟨101, _⟩ => ⟨S1605632, .i32⟩
  | .hbm, ⟨102, _⟩ => ⟨S1605632, .i1⟩
  | .hbm, ⟨103, _⟩ => ⟨S_, .i32⟩
  | .hbm, ⟨104, _⟩ => ⟨S1605632, .i32⟩
  | .hbm, ⟨105, _⟩ => ⟨S1605632, .i32⟩
  | .hbm, ⟨106, _⟩ => ⟨S1605632, .i32⟩
  | .hbm, ⟨107, _⟩ => ⟨S1605632x1, .i32⟩
  | .hbm, ⟨108, _⟩ => ⟨S1605632x32, .f32⟩
  | .hbm, ⟨109, _⟩ => ⟨S1605632, .f32⟩
  | .hbm, ⟨110, _⟩ => ⟨S1600000, .f32⟩
  | .local _ .vmem, ⟨0, _⟩ => ⟨S20000x128, .f32⟩
  | .local _ .vmem, ⟨1, _⟩ => ⟨S20000x128, .f32⟩
  | .local _ .vmem, ⟨2, _⟩ => ⟨S128x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S64x64, .f32⟩
  | .local _ .vmem, ⟨13, _⟩ => ⟨S20000x64, .f32⟩
  | .local _ .vmem, ⟨14, _⟩ => ⟨S20000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S8192x32, .f32⟩
  | .local _ .vmem, ⟨27, _⟩ => ⟨S8192x32, .f32⟩
  | .local _ .vmem, ⟨28, _⟩ => ⟨S8192x32, .f32⟩
  | .local _ .vmem, ⟨29, _⟩ => ⟨S8192x32, .f32⟩
  | .local _ .vmem, ⟨30, _⟩ => ⟨S8192, .f32⟩
  | .local _ .vmem, ⟨31, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_v60_2 : Ref sig .tc := ⟨.hbm, 84, rfl⟩
abbrev main_c_11 : Ref sig .tc := ⟨.hbm, 85, rfl⟩
abbrev main_call0_v0 : Ref sig .tc := ⟨.hbm, 86, rfl⟩
abbrev main_v61 : Ref sig .tc := ⟨.hbm, 87, rfl⟩
abbrev main_c_12 : Ref sig .tc := ⟨.hbm, 88, rfl⟩
abbrev main_call1_v0 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![196], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S20000x128_S20000x128_0_0 : ∀ a, (![0, 0] : Fin 2 → Nat) a + S20000x128.size a ≤ S20000x128.size a
  h_S20000x128 : 0 < S20000x128.numel
  inb_S128x64_S128x64_0_0 : ∀ a, (![0, 0] : Fin 2 → Nat) a + S128x64.size a ≤ S128x64.size a
  h_S128x64 : 0 < S128x64.numel
  inb_S20000x64_S20000x64_0_0 : ∀ a, (![0, 0] : Fin 2 → Nat) a + S20000x64.size a ≤ S20000x64.size a
  h_S20000x64 : 0 < S20000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S20000x64_S20000x64 : S20000x64.ShapeCasts S20000x64
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  reduces_S20000x64_S20000 : S20000x64.Reduces [1] S20000
  shapeCasts_S20000_S20000x1 : S20000.ShapeCasts S20000x1
  broadcasts_S20000x1_S20000x64 : S20000x1.Broadcasts S20000x64
  concatenates_S64x32_S64x32_S64x64_d1 : Shape.Concatenates [S64x32, S64x32] S64x64 1
  concatenates_S32_S32_S64_d0 : Shape.Concatenates [S32, S32] S64 0
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64_S64 : S64.ShapeCasts S64
  broadcasts_S1x64_S5000x64 : S1x64.Broadcasts S5000x64
  slices_S5000x64_o0_0_S5000x32 : S5000x64.Slices ![0, 0] S5000x32
  slices_S5000x64_o0_32_S5000x32 : S5000x64.Slices ![0, 32] S5000x32
  inb_S5000x32_S5000x32_0_0 : ∀ a, (![0, 0] : Fin 2 → Nat) a + S5000x32.size a ≤ S5000x32.size a
  h_S5000x32 : 0 < S5000x32.numel
  pads_S1600000_S1605632_056320 : S1600000.Pads (![0] : Fin 1 → Nat) ![5632] ![0] S1605632
  h_S_ : 0 < S_.numel
  bcast_S_S1605632 : S_.BroadcastsInDim S1605632 (![] : Fin 0 → Fin S1605632.rank)
  bcast_S1605632_S1605632x1_0 : S1605632.BroadcastsInDim S1605632x1 (![0] : Fin 1 → Fin S1605632x1.rank)
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  reduces_S8192x32_S8192 : S8192x32.Reduces [1] S8192
  inb_S8192_S8192_0 : ∀ a, (![0] : Fin 1 → Nat) a + S8192.size a ≤ S8192.size a
  h_S8192 : 0 < S8192.numel
  slices_S1605632_S1600000_0 : S1605632.Slices ![0] S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x128_S128x64_S20000x64_1_0_0_1_n_n_wf : DotDims.WF S20000x128 S128x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S20000x64_S64x64_S20000x64_1_0_0_1_n_n_wf : DotDims.WF S20000x64 S64x64 S20000x64 [1] [0] [0] [1] [] []
  gather_S100000x32_S1605632x1_S1605632x32_1_0_n_n_0_1_132_wf : GatherDims.WF S100000x32 S1605632x1 S1605632x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S100000x64.size a
  hwx2_2 : ∀ i : grid2.Coords, EltTy.bits .f32 = 32 ∨ (Rect.block (s := S100000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x32.size a ≤ S1605632x32.size a
  hwx4_0 : ∀ i : grid4.Coords, EltTy.bits .f32 = 32 ∨ (Rect.block (s := S1605632x32) S8192x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x32.size a ≤ S1605632x32.size a
  hwx4_1 : ∀ i : grid4.Coords, EltTy.bits .f32 = 32 ∨ (Rect.block (s := S1605632x32) S8192x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192.size a ≤ S1605632.size a
  hwx4_2 : ∀ i : grid4.Coords, EltTy.bits .f32 = 32 ∨ (Rect.block (s := S1605632) S8192.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x32_S1605632x1_S1605632x32_1_0_n_n_0_1_132 : GatherDims S100000x32 S1605632x1 S1605632x32 where
  offsetDims := [1]
  collapsedSliceDims := [0]
  operandBatchingDims := []
  startIndicesBatchingDims := []
  startIndexMap := [0]
  indexVectorDim := 1
  sliceSizes := ![1, 32]
  wf := gather_S100000x32_S1605632x1_S1605632x32_1_0_n_n_0_1_132_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60_0) S5000x32.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v60_1) S5000x32.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v60_2) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S8192x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S8192x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S8192.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x32 : Shape := ⟨2, ![100000, 32]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1700000x32 : Shape := ⟨2, ![1700000, 32]⟩
abbrev S1x32 : Shape := ⟨2, ![1, 32]⟩
abbrev S1600000x1 : Shape := ⟨2, ![1600000, 1]⟩
abbrev S1600000x32 : Shape := ⟨2, ![1600000, 32]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S100000x32, .f32⟩
  | 3 => ⟨S128x64, .f32⟩
  | 4 => ⟨S64, .f32⟩
  | 5 => ⟨S64x32, .f32⟩
  | 6 => ⟨S32, .f32⟩
  | 7 => ⟨S64x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x64, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S_, .f32⟩
  | 70 => ⟨S100000, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x64, .f32⟩
  | 77 => ⟨S100000x64, .f32⟩
  | 78 => ⟨S100000x32, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x32, .f32⟩
  | 88 => ⟨S1700000x1, .f32⟩
  | 89 => ⟨S1700000x32, .f32⟩
  | 90 => ⟨S1700000x32, .f32⟩
  | 91 => ⟨S_, .f32⟩
  | 92 => ⟨S100000x32, .f32⟩
  | 93 => ⟨S1700000x1, .i32⟩
  | 94 => ⟨S100000x32, .f32⟩
  | 95 => ⟨S1x32, .f32⟩
  | 96 => ⟨S100000x32, .f32⟩
  | 97 => ⟨S100000x32, .f32⟩
  | 98 => ⟨S100000x32, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x32, .f32⟩
  | 108 => ⟨S1700000x1, .f32⟩
  | 109 => ⟨S1700000x32, .f32⟩
  | 110 => ⟨S1700000x32, .f32⟩
  | 111 => ⟨S_, .f32⟩
  | 112 => ⟨S100000x32, .f32⟩
  | 113 => ⟨S1700000x1, .i32⟩
  | 114 => ⟨S100000x32, .f32⟩
  | 115 => ⟨S1x32, .f32⟩
  | 116 => ⟨S100000x32, .f32⟩
  | 117 => ⟨S100000x32, .f32⟩
  | 118 => ⟨S_, .f32⟩
  | 119 => ⟨S_, .f32⟩
  | 120 => ⟨S_, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x32, .f32⟩
  | 127 => ⟨S100000x32, .f32⟩
  | _ => ⟨S100000x128, .f32⟩

abbrev hbmTy0_1 (i : Nat) : BufTy := match i % 128 with
  | 0 => ⟨S100000x32, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x32, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S1600000x32, .f32⟩
  | 20 => ⟨S_, .f32⟩
  | 21 => ⟨S1600000, .f32⟩
  | 22 => ⟨S1600000, .f32⟩
  | 23 => ⟨S1600000, .f32⟩
  | 24 => ⟨S_, .f32⟩
  | 25 => ⟨S1600000, .f32⟩
  | 26 => ⟨S1600000, .f32⟩
  | 27 => ⟨S_, .f32⟩
  | 28 => ⟨S1600000, .f32⟩
  | 29 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_15 : Ref sig .tc := ⟨.hbm, 118, rfl⟩
abbrev main_cst_16 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_17 : Ref sig .tc := ⟨.hbm, 129, rfl⟩
abbrev main_v90 : Ref sig .tc := ⟨.hbm, 130, rfl⟩
abbrev main_v91 : Ref sig .tc := ⟨.hbm, 131, rfl⟩
abbrev main_c_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_19 : Ref sig .tc := ⟨.hbm, 138, rfl⟩
abbrev main_v97 : Ref sig .tc := ⟨.hbm, 139, rfl⟩
abbrev main_v98 : Ref sig .tc := ⟨.hbm, 140, rfl⟩
abbrev main_c_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_22 : Ref sig .tc := ⟨.hbm, 152, rfl⟩
abbrev main_v108 : Ref sig .tc := ⟨.hbm, 153, rfl⟩
abbrev main_v109 : Ref sig .tc := ⟨.hbm, 154, rfl⟩
abbrev main_cst_23 : Ref sig .tc := ⟨.hbm, 155, rfl⟩
abbrev main_v110 : Ref sig .tc := ⟨.hbm, 156, rfl⟩
abbrev main_v111 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x32_S1600000_d1 : S1600000x32.ReducesTo [1] S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  gather_S100000x32_S1600000x1_S1600000x32_1_0_n_n_0_1_132_wf : GatherDims.WF S100000x32 S1600000x1 S1600000x32 [1] [0] [] [0] [] 1 ![1, 32]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf

class Facts : Prop extends Facts₀ where

variable [Facts]
-- ==== Proof.Spec.lean ====
/-
  The mathematics of the encoder and decoder, entry by entry, over the extended reals.

  A matrix is a function of a rank-2 index; a vector, of a rank-1 index.  The graph-convolution layers use a matrix product;
  the first layer's epilogue adds a bias, clamps below at zero and divides each row by its Euclidean norm (not less than a
  small floor); the second layer carries the mean and the log-deviation side by side in one 64-column matrix, adds the
  bias, splits the columns, clamps the log-deviation to [-10, 10] and draws z = mu + eps * exp(clamped); an edge's score is
  the logistic function of the inner product of its endpoints' rows of z.  Float literals are kept as the binary words the
  programs print: the same word stands on both sides and is never evaluated.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns. -/
abbrev Mat (r c : Nat) := (⟨2, ![r, c]⟩ : Shape).Idx → EReal
/-- A vector of extended reals of length `n`. -/
abbrev Row (n : Nat) := (⟨1, ![n]⟩ : Shape).Idx → EReal

/-- The row coordinate of a matrix index. -/
abbrev rowOf {r c : Nat} (i : (⟨2, ![r, c]⟩ : Shape).Idx) : Fin r := ⟨(i 0).val, (i 0).isLt⟩
/-- The column coordinate of a matrix index. -/
abbrev colOf {r c : Nat} (i : (⟨2, ![r, c]⟩ : Shape).Idx) : Fin c := ⟨(i 1).val, (i 1).isLt⟩
/-- The coordinate of a vector index. -/
abbrev posOf {n : Nat} (i : (⟨1, ![n]⟩ : Shape).Idx) : Fin n := ⟨(i 0).val, (i 0).isLt⟩

/-- The matrix product: entry (i, j) is the sum over k of a[i,k] * b[k,j]. -/
def mm {M K N : Nat} (a : Mat M K) (b : Mat K N) : Mat M N :=
  fun i => ∑ k : Fin K, a (ix2 (rowOf i) k) * b (ix2 k (colOf i))

/-- Two 32-column matrices side by side: columns 0..31 from `p`, columns 32..63 from `q`. -/
def sideBySide {M : Nat} (p q : Mat M 32) : Mat M 64 :=
  fun i => if h : (i 1).val < 32 then p (ix2 (rowOf i) ⟨(i 1).val, h⟩)
    else q (ix2 (rowOf i) ⟨(i 1).val - 32, by have h2 : (i 1).val < 64 := (i 1).isLt; omega⟩)

/-- Two 32-vectors end to end. -/
def endToEnd (p q : Row 32) : Row 64 :=
  fun i => if h : (i 0).val < 32 then p (ix1 ⟨(i 0).val, h⟩)
    else q (ix1 ⟨(i 0).val - 32, by have h2 : (i 0).val < 64 := (i 0).isLt; omega⟩)

/-- Entry (i, j) of `a` plus the bias's entry j, clamped below at zero. -/
def biasRelu {M C : Nat} (a : Mat M C) (b : Row C) (i : Fin M) (j : Fin C) : EReal :=
  max (a (ix2 i j) + b (ix1 j)) (Ideal.ofBits .f32 0x00000000#32)

/-- The first layer's epilogue: bias, clamp at zero, then each row divided by the larger of its Euclidean norm and the
    floor `0x2B8CBCCC` (the float nearest 1e-12). -/
def rowNormalize {M C : Nat} (a : Mat M C) (b : Row C) : Mat M C :=
  fun i => Ideal.div (biasRelu a b (rowOf i) (colOf i))
    (max (Ideal.sqrt (∑ j : Fin C, biasRelu a b (rowOf i) j * biasRelu a b (rowOf i) j)) (Ideal.ofBits .f32 0x2B8CBCCC#32))

/-- The mean: the left half of the aggregated matrix plus the left half of the bias. -/
def muOf {M : Nat} (g : Mat M 64) (bc : Row 64) : Mat M 32 :=
  fun i => g (ix2 (rowOf i) ⟨(i 1).val, by have h2 : (i 1).val < 32 := (i 1).isLt; omega⟩)
    + bc (ix1 ⟨(i 1).val, by have h2 : (i 1).val < 32 := (i 1).isLt; omega⟩)

/-- The log-deviation: the right half of the aggregated matrix plus the right half of the bias. -/
def lsOf {M : Nat} (g : Mat M 64) (bc : Row 64) : Mat M 32 :=
  fun i => g (ix2 (rowOf i) ⟨(i 1).val + 32, by have h2 : (i 1).val < 32 := (i 1).isLt; omega⟩)
    + bc (ix1 ⟨(i 1).val + 32, by have h2 : (i 1).val < 32 := (i 1).isLt; omega⟩)

/-- Clamp to [-10, 10] (the words of -10.0 and 10.0). -/
def clamp10 (x : EReal) : EReal :=
  min (Ideal.ofBits .f32 0x41200000#32) (max (Ideal.ofBits .f32 0xC1200000#32) x)

/-- The drawn latent: mean plus noise times the exponential of the clamped log-deviation. -/
def zOf {M : Nat} (g : Mat M 64) (bc : Row 64) (e : Mat M 32) : Mat M 32 :=
  fun i => muOf g bc i + e i * Ideal.exp (clamp10 (lsOf g bc i))

/-- An edge's score: the logistic function of the inner product of the two gathered rows. -/
def edgeScore {E : Nat} (zs zd : Mat E 32) : Row E :=
  fun e => Ideal.logistic (∑ j : Fin 32, zs (ix2 (posOf e) j) * zd (ix2 (posOf e) j))

end Cert.Spec

end
-- ==== Proof.KOps.lean ====
/-
  The host operations that only the kernel program performs, each as one function of its operands.

  The kernel program runs the mean's and the log-deviation's graph convolutions as ONE pass over a 64-column table: it
  joins the two weight matrices side by side and the two biases end to end, and aggregates the 64-column product once.
  Its decoder pads the two lists of edge endpoints with zeros to a multiple of the block size, gathers the latent's rows
  at the padded lists, scores every padded edge and keeps the first 1600000 scores.
-/
import proofs.«408827_j68427418960020_4_alg».proof.Proof.Gen.KernelIdeal
import proofs.«408827_j68427418960020_4_alg».proof.Proof.Gen.ReferenceIdeal.Read
import proofs.«408827_j68427418960020_4_alg».proof.Proof.Spec

noncomputable section

namespace Cert.KernelIdeal.Ops

open Idealize.ShloMosaic Idealize.ShloMosaic.TcCoe
open Cert.KernelIdeal Cert.KernelIdeal.Facts₀ Cert.KernelIdeal.Facts
open Cert.ReferenceIdeal.Read (val_main_v35 val_main_v38 val_main_v40 val_main_v41)

/-- The two 64x32 weight matrices side by side. -/
def joinWeights (x5 x7 : FVec Ideal S64x32 .f32) : FVec Ideal S64x64 .f32 :=
  concatenate S64x64 1 [⟨S64x32, x5⟩, ⟨S64x32, x7⟩] concatenates_S64x32_S64x32_S64x64_d1

/-- The two 32-entry biases end to end. -/
def joinBiases (x6 x8 : FVec Ideal S32 .f32) : FVec Ideal S64 .f32 :=
  concatenate S64 0 [⟨S32, x6⟩, ⟨S32, x8⟩] concatenates_S32_S32_S64_d0

/-- One aggregation pass over a 64-column table `A`: its rows taken at the (wrapped) source words, row `e` scaled by the
    edge's normalization, the scaled rows added into a zero table at the destination words.  The source words, the
    scales, the zero table and the destination words are the functions of the edge list both programs compute. -/
def aggregate64 (x1 : IVec S2x1600000 32) (A : FVec Ideal S100000x64 .f32) : FVec Ideal S100000x64 .f32 :=
  Host.scatterAdd (F := Ideal) scatter_S100000x64_S1700000x1_S1700000x64_1_0_0_1 (val_main_v40 (F := Ideal)) (val_main_v41 (F := Ideal) x1)
    (mulf (F := Ideal) (Host.gather gather_S100000x64_S1700000x1_S1700000x64_1_0_n_n_0_1_164 A (val_main_v35 (F := Ideal) x1)) (val_main_v38 (F := Ideal) x1))

/-- A list of 1600000 endpoint words padded with 5632 zero words. -/
def padWords (s : IVec S1600000 32) : IVec S1605632 32 :=
  pad S1605632 ![0] ![5632] ![0] s (constantI S_ 32 0#32) pads_S1600000_S1605632_056320 h_S_

/-- The padded words with a negative word wrapped by the table's length, as a column of start indices. -/
def wrapPadded (s : IVec S1600000 32) : IVec S1605632x1 32 :=
  broadcastInDim S1605632x1 ![0] bcast_S1605632_S1605632x1_0
    (select (cmpi .slt (padWords s) (broadcastInDim S1605632 ![] bcast_S_S1605632 (constantI S_ 32 0#32)))
      (addi (padWords s) (broadcastInDim S1605632 ![] bcast_S_S1605632 (constantI S_ 32 100000#32))) (padWords s))

/-- The latent's rows at the padded endpoint list. -/
def gatherPadded (z : FVec Ideal S100000x32 .f32) (s : IVec S1600000 32) : FVec Ideal S1605632x32 .f32 :=
  Host.gather gather_S100000x32_S1605632x1_S1605632x32_1_0_n_n_0_1_132 z (wrapPadded s)

/-- The first 1600000 of the padded edges' scores. -/
def keepEdges (v : FVec Ideal S1605632 .f32) : FVec Ideal S1600000 .f32 :=
  extractStridedSlice S1600000 ![0] v slices_S1605632_S1600000_0

end Cert.KernelIdeal.Ops

end
-- ==== Proof.Region0.lean ====
/-
  Region 0: the first layer's matrix product, computed 20000 rows at a time over five grid points.
  After the run the output array holds, entry by entry, the product of the two input arrays as the region found them.

  The road: the body's stored value at an entry (p, q) of a block is the sum over k of the left block at (p, k) times the
  right block at (k, q); at grid point t the left block is rows 20000·t … 20000·t + 19999 of the left array, the right
  block is the whole right array, and the written block is rows 20000·t … 20000·t + 19999 of the output array; the five
  blocks cover the 100000 rows, so the array ends holding the product.
-/
import proofs.«408827_j68427418960020_4_alg».proof.Proof.Gen.KernelIdeal.Frame
import proofs.«408827_j68427418960020_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

-- The buffers' contents when the region is entered: a parameter.
variable (V : (c : Dev nD) → (b : Ref sig .tc) → Buf (Elt Ideal) ((c : Thread nD τ).loc b))

/-! ## The block product at an entry -/

/-- The left operand's row coordinate is the output's row. -/
theorem lhs_row (i : S20000x64.Idx) (q : dot_S20000x128_S128x64_S20000x64_1_0_0_1_n_n.contr.Idx) :
    (dot_S20000x128_S128x64_S20000x64_1_0_0_1_n_n.lhsIdx i q 0).val = (i 0).val := by
  unfold DotDims.lhsIdx
  rw [dif_neg (show ¬(0 : Fin S20000x128.rank) ∈ dot_S20000x128_S128x64_S20000x64_1_0_0_1_n_n.lhsBatch by decide), dif_pos (show (0 : Fin S20000x128.rank) ∈ dot_S20000x128_S128x64_S20000x64_1_0_0_1_n_n.lhsNonContracting by decide)]
  rfl
/-- The left operand's column coordinate is the contraction index. -/
theorem lhs_col (i : S20000x64.Idx) (q : dot_S20000x128_S128x64_S20000x64_1_0_0_1_n_n.contr.Idx) :
    (dot_S20000x128_S128x64_S20000x64_1_0_0_1_n_n.lhsIdx i q 1).val = (q ⟨0, by decide⟩).val :=
  dot_S20000x128_S128x64_S20000x64_1_0_0_1_n_n.lhsIdx_val_of_single rfl i q
/-- The right operand's row coordinate is the contraction index. -/
theorem rhs_row (i : S20000x64.Idx) (q : dot_S20000x128_S128x64_S20000x64_1_0_0_1_n_n.contr.Idx) :
    (dot_S20000x128_S128x64_S20000x64_1_0_0_1_n_n.rhsIdx i q 0).val = (q ⟨0, by decide⟩).val :=
  dot_S20000x128_S128x64_S20000x64_1_0_0_1_n_n.rhsIdx_val_of_single rfl i q
/-- The right operand's column coordinate is the output's column. -/
theorem rhs_col (i : S20000x64.Idx) (q : dot_S20000x128_S128x64_S20000x64_1_0_0_1_n_n.contr.Idx) :
    (dot_S20000x128_S128x64_S20000x64_1_0_0_1_n_n.rhsIdx i q 1).val = (i 1).val := by
  unfold DotDims.rhsIdx
  rw [dif_neg (show ¬(1 : Fin S128x64.rank) ∈ dot_S20000x128_S128x64_S20000x64_1_0_0_1_n_n.rhsBatch by decide), dif_pos (show (1 : Fin S128x64.rank) ∈ dot_S20000x128_S128x64_S20000x64_1_0_0_1_n_n.rhsNonContracting by decide)]
  rfl

/-- Entry (p, q) of the body's stored value: the sum over k of the left block at (p, k) times the right block at (k, q). -/
theorem product_entry (x0 : Vec Ideal S20000x128 .f32) (x1 : Vec Ideal S128x64 .f32) (p : Fin 20000) (q : Fin 64) :
    k0_pay1 x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S20000x128_S128x64_S20000x64_1_0_0_1_n_n 128 rfl rfl).symm]
  refine Finset.sum_congr rfl fun k _ => ?_
  have hk := ValueIdx.contrEquiv1_symm_val dot_S20000x128_S128x64_S20000x64_1_0_0_1_n_n 128 rfl rfl k
  have el : dot_S20000x128_S128x64_S20000x64_1_0_0_1_n_n.lhsIdx (ix2 p q) ((ValueIdx.contrEquiv1 dot_S20000x128_S128x64_S20000x64_1_0_0_1_n_n 128 rfl rfl).symm k) = ix2 p k := funext fun a => Fin.ext (by
    match a with
    | ⟨0, _⟩ => exact lhs_row _ _
    | ⟨1, _⟩ => exact (lhs_col _ _).trans hk)
  have er : dot_S20000x128_S128x64_S20000x64_1_0_0_1_n_n.rhsIdx (ix2 p q) ((ValueIdx.contrEquiv1 dot_S20000x128_S128x64_S20000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## Where each block sits in its array -/

theorem zero_offsets : (![0, 0] : Fin 2 → Nat) = fun _ => 0 := funext fun a => by fin_cases a <;> rfl

/-- The block indices over the grid: at point t the left window and the output window are at block row t, block
    column 0; the right window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t, at (p, k), is the left array at row 20000·t + p, column k. -/
theorem left_block (c : Dev nD) (t : Fin cfg0.N) (p : Fin 20000) (k : Fin 128) (r : Fin 100000)
    (hr : r.val = t.val * 20000 + p.val) :
    (iblk0 V c 0 t : Vec Ideal S20000x128 .f32) (ix2 p k) = (V c main_arg0 : S100000x128.Idx → EReal) (ix2 r k) := by
  obtain ⟨e0, e1, -, -, -, -⟩ := block_indices t
  unfold iblk0
  rw [View.read_apply]
  show V c main_arg0 _ = V c main_arg0 (ix2 r k)
  refine congrArg _ ?_
  funext a
  apply Fin.ext
  match a with
  | ⟨0, _⟩ => show win0_0.index t (0 : Fin 2) * 20000 + 1 * p.val = r.val; rw [e0, hr]; omega
  | ⟨1, _⟩ => show win0_0.index t (1 : Fin 2) * 128 + 1 * k.val = k.val; rw [e1]; omega

/-- The right window's block at any point, at (k, q), is the right array at (k, q). -/
theorem right_block (c : Dev nD) (t : Fin cfg0.N) (k : Fin 128) (q : Fin 64) :
    (iblk0 V c 1 t : Vec Ideal S128x64 .f32) (ix2 k q) = (V c main_arg3 : S128x64.Idx → EReal) (ix2 k q) := by
  obtain ⟨-, -, e2, e3, -, -⟩ := block_indices t
  unfold iblk0
  rw [View.read_apply]
  show V c main_arg3 _ = V c main_arg3 (ix2 k q)
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-! ## What a point writes back -/

/-- What point t writes back is block t of the product of the two arrays as the region found them. -/
theorem flushed_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero zero_offsets]
  simp only [View.ld_unit_zero (S := S20000x128) zero_offsets, View.ld_unit_zero (S := S128x64) zero_offsets]
  obtain ⟨-, -, -, -, e4, e5⟩ := block_indices t
  funext j
  obtain ⟨p, q, rfl⟩ : ∃ (p : Fin 20000) (q : Fin 64), j = ix2 p q := ⟨j 0, j 1, eq_ix2 j⟩
  show k0_pay1 (iblk0 V c 0 t) (iblk0 V c 1 t) (ix2 p q)
    = Cert.Spec.mm (V c main_arg0) (V c main_arg3) (((cfg0.win 2).blk t).view.emb (ix2 p q))
  rw [product_entry]
  unfold Cert.Spec.mm
  refine Finset.sum_congr rfl fun k _ => ?_
  have hr : ((((cfg0.win 2).blk t).view.emb (ix2 p q) : S100000x64.Idx) 0).val = t.val * 20000 + p.val := by
    show win0_2.index t (0 : Fin 2) * 20000 + 1 * p.val = _; rw [e4]; omega
  have hc : ((((cfg0.win 2).blk t).view.emb (ix2 p q) : S100000x64.Idx) 1).val = q.val := by
    show win0_2.index t (1 : Fin 2) * 64 + 1 * q.val = _; rw [e5]; omega
  have hq : Cert.Spec.colOf (((cfg0.win 2).blk t).view.emb (ix2 p q) : S100000x64.Idx) = q := Fin.ext hc
  rw [left_block V c t p k (Cert.Spec.rowOf (((cfg0.win 2).blk t).view.emb (ix2 p q) : S100000x64.Idx)) hr,
    right_block V c t k q, hq]

/-! ## The blocks cover the array -/

/-- An index of the output array is in point t's block iff each coordinate is in the block's range on its axis. -/
theorem mem_blk (t : Fin cfg0.N) (i : S100000x64.Idx) :
    i ∈ ((cfg0.win 2).blk t).view.set ↔ ∀ a : Fin 2, win0_2.index t a * S20000x64.size a ≤ (i a).val
      ∧ (i a).val < win0_2.index t a * S20000x64.size a + S20000x64.size a := by
  show i ∈ ((View.whole main_v29).slice (win0_2.rect t)).set ↔ _
  rw [View.set_slice_whole, Rect.mem_set_unit]
  exact Iff.rfl

/-- Row r of the output array lies in the block of point r / 20000, and every point writes its block back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 5 := N_0
  let t : Fin cfg0.N := ⟨(i 0).val / 20000, by show (i 0).val / 20000 < grid0.N; rw [hN]; omega⟩
  have ht : t.val = (i 0).val / 20000 := rfl
  obtain ⟨-, -, -, -, e4, e5⟩ := block_indices t
  refine ⟨t, flush0_2 t, ?_⟩
  rw [mem_blk]
  intro a
  match a with
  | ⟨0, _⟩ =>
    show win0_2.index t (0 : Fin 2) * 20000 ≤ (i 0).val ∧ (i 0).val < win0_2.index t (0 : Fin 2) * 20000 + 20000
    rw [e4, ht]; omega
  | ⟨1, _⟩ =>
    show win0_2.index t (1 : Fin 2) * 64 ≤ (i 1).val ∧ (i 1).val < win0_2.index t (1 : Fin 2) * 64 + 64
    rw [e5]; omega

/-! ## The array after the region -/

/-- After region 0 its output array is the matrix product of the node features and the first weight matrix. -/
theorem arr (c : Dev nD) :
    (dat0 (F := Ideal) V c).arrAt 2 cfg0.N = Cert.Spec.mm (V c main_arg0) (V c main_arg3) :=
  (dat0 (F := Ideal) V c).arrAt_eq_of_cover 2 _ (fun t _ => flushed_eq V c t) cover

end Cert.KernelIdeal.Region0

end
-- ==== Proof.Region1.lean ====
/-
  Region 1: the first layer's epilogue, 20000 rows at a time over five grid points: add the bias, clamp below at zero,
  divide each row by the larger of its Euclidean norm and a small floor.
-/
import proofs.«408827_j68427418960020_4_alg».proof.Proof.Gen.KernelIdeal.Frame
import proofs.«408827_j68427418960020_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

-- the buffers' contents when the region is entered: a parameter of every statement below
variable (V : (c : Dev nD) → (b : Ref sig .tc) → Buf (Elt Ideal) ((c : Thread nD τ).loc b))

/-! ## The layout operations of the row norm, read at an entry -/

/-- A vector cast to one column: entry (i, u) of the column is entry i of the vector. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: entry (p, c) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along a row: the lane reduction of a 20000 × 64 block at row p is the sum of that row's 64 entries. -/
theorem rowSum_apply (src : FVec Ideal S20000x64 .f32) (acc : BitVec FTy.f32.bits) (h : S20000x64.Reduces [1] S20000)
    (hφ : FKind.Formats .f32) (hacc : acc = FKind.add.neutral .f32 hφ) (p : Fin 20000) :
    multiReduction (F := Ideal) .add [1] S20000 src acc h hφ hacc (ix1 p) = ∑ k : Fin 64, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-! ## The body's payload at an entry -/

/-- The rectified biased block: entry (r, c) is the aggregate's entry plus the bias's entry c, clamped below at zero. -/
theorem relu_apply (x0 : Vec Ideal S20000x64 .f32) (x2 : Vec Ideal S64 .f32) (h1 : S20000x64.ShapeCasts S20000x64)
    (h2 : S64.ShapeCasts S1x64) (h3 : S1x64.Broadcasts S20000x64) (r : Fin 20000) (c : Fin 64) :
    (maximumf (addf (shapeCast S20000x64 x0 h1) (broadcastTo S20000x64 (shapeCast S1x64 x2 h2) h3))
        (broadcast S20000x64 (Scalar.ofBits (F := Ideal) .f32 0x00000000#32)) : FVec Ideal S20000x64 .f32) (ix2 r c)
      = Cert.Spec.biasRelu x0 x2 r c := by
  rw [maximumf_apply, addf_apply, shapeCast_self, broadcastTo_1b_ab_apply, shapeCast_a_1a_apply, broadcast_apply]
  rfl

/-- The divisor block: for a block R whose row p reads f, entry (p, q) of the column of row norms (each not less than
    the floor w), spread over the 64 columns, is the larger of the square root of the sum of f's squares and the floor. -/
theorem normCol_apply (R : FVec Ideal S20000x64 .f32) (acc : BitVec FTy.f32.bits) (h : S20000x64.Reduces [1] S20000)
    (hφ : FKind.Formats .f32) (hacc : acc = FKind.add.neutral .f32 hφ) (hc : S20000.ShapeCasts S20000x1)
    (hb : S20000x1.Broadcasts S20000x64) (w : BitVec FTy.f32.bits) (p : Fin 20000) (q : Fin 64)
    (f : Fin 64 → EReal) (hR : ∀ k : Fin 64, R (ix2 p k) = f k) :
    (broadcastTo S20000x64 (maximumf (sqrt (shapeCast S20000x1 (multiReduction (F := Ideal) .add [1] S20000 (mulf R R) acc h hφ hacc) hc))
        (broadcast S20000x1 (Scalar.ofBits (F := Ideal) .f32 w))) hb : FVec Ideal S20000x64 .f32) (ix2 p q)
      = max (Ideal.sqrt (∑ k : Fin 64, f k * f k)) (Ideal.ofBits .f32 w) := by
  rw [broadcastTo_a1_ab_apply, maximumf_apply, broadcast_apply]
  unfold sqrt
  rw [shapeCast_a_a1_apply, rowSum_apply]
  simp only [mulf_apply, hR]
  rfl

set_option maxHeartbeats 400000 in
/-- The payload at entry (p, q): the rectified biased entry divided by the larger of its row's Euclidean norm and the floor. -/
theorem pay_apply (x0 : Vec Ideal S20000x64 .f32) (x2 : Vec Ideal S64 .f32) (p : Fin 20000) (q : Fin 64) :
    k1_pay1 (F := Ideal) x0 x2 (ix2 p q) = Cert.Spec.rowNormalize x0 x2 (ix2 p q) := by
  unfold k1_pay1
  simp only []
  refine (divf_apply _ _ _).trans ?_
  exact congrArg₂ Ideal.div (relu_apply x0 x2 _ _ _ p q)
    (normCol_apply _ _ _ _ _ _ _ _ p q (fun k => Cert.Spec.biasRelu x0 x2 p k) (fun k => relu_apply x0 x2 _ _ _ p k))

/-! ## The row normalization depends on one row of the aggregate and on the bias -/

/-- Two aggregates that agree along a row (row p of one, row p' of the other) under biases that agree entry by entry
    have the same normalized row. -/
theorem rowNormalize_congr {M M' C : Nat} (a : Cert.Spec.Mat M C) (a' : Cert.Spec.Mat M' C) (b b' : Cert.Spec.Row C)
    (p : Fin M) (p' : Fin M') (q : Fin C) (ha : ∀ k : Fin C, a (ix2 p k) = a' (ix2 p' k))
    (hb : ∀ k : Fin C, b (ix1 k) = b' (ix1 k)) :
    Cert.Spec.rowNormalize a b (ix2 p q) = Cert.Spec.rowNormalize a' b' (ix2 p' q) := by
  have hr : ∀ k : Fin C, Cert.Spec.biasRelu a b p k = Cert.Spec.biasRelu a' b' p' k := fun k => by
    unfold Cert.Spec.biasRelu; rw [ha, hb]
  show Ideal.div (Cert.Spec.biasRelu a b p q)
      (max (Ideal.sqrt (∑ j : Fin C, Cert.Spec.biasRelu a b p j * Cert.Spec.biasRelu a b p j)) (Ideal.ofBits .f32 0x2B8CBCCC#32))
    = Ideal.div (Cert.Spec.biasRelu a' b' p' q)
      (max (Ideal.sqrt (∑ j : Fin C, Cert.Spec.biasRelu a' b' p' j * Cert.Spec.biasRelu a' b' p' j)) (Ideal.ofBits .f32 0x2B8CBCCC#32))
  simp only [hr]

/-! ## The blocks of the three windows -/

theorem zero2 : (![0, 0] : Fin 2 → Nat) = fun _ => 0 := funext fun a => by fin_cases a <;> rfl
theorem zero1 : (![0] : Fin 1 → Nat) = fun _ => 0 := funext fun a => by fin_cases a; rfl

/-- The printed index maps over the five grid points: at point t the aggregate's block and the result's block are
    block row t of their arrays, and the bias's block is the whole vector. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Entry (p, k) of the aggregate's block at point t is entry (20000 t + p, k) of the aggregate. -/
theorem aggBlock_apply (c : Dev nD) (t : Fin cfg1.N) (p : Fin 20000) (k : Fin 64) (P : Fin 100000)
    (hP : P.val = t.val * 20000 + p.val) :
    iblk1 V c 0 t (ix2 p k) = V c main_v42 (ix2 P k) := by
  obtain ⟨e0, e1, e2, e3, e4⟩ := idx_facts t
  unfold iblk1
  rw [View.read_apply]
  show V c main_v42 (((cfg1.win 0).blk t).view.emb (ix2 p k)) = V c main_v42 (ix2 P k)
  refine congrArg _ ?_
  funext a; apply Fin.ext
  match a with
  | ⟨0, _⟩ => show win1_0.index t (0 : Fin 2) * 20000 + 1 * p.val = P.val; omega
  | ⟨1, _⟩ => show win1_0.index t (1 : Fin 2) * 64 + 1 * k.val = k.val; omega

/-- The bias's block at every point is the bias. -/
theorem biasBlock_apply (c : Dev nD) (t : Fin cfg1.N) (k : Fin 64) :
    iblk1 V c 1 t (ix1 k) = V c main_arg4 (ix1 k) := by
  obtain ⟨e0, e1, e2, e3, e4⟩ := idx_facts t
  unfold iblk1
  rw [View.read_apply]
  show V c main_arg4 (((cfg1.win 1).blk t).view.emb (ix1 k)) = V c main_arg4 (ix1 k)
  refine congrArg _ ?_
  funext a; apply Fin.ext
  match a with
  | ⟨0, _⟩ => show win1_1.index t (0 : Fin 1) * 64 + 1 * k.val = k.val; omega

/-! ## What a grid point writes back, and the array after the five points -/

set_option maxHeartbeats 400000 in
/-- What point t writes back is block row t of the row-normalized array. -/
theorem flushed_eq (c : Dev nD) (t : Fin cfg1.N) :
    (dat1 (F := Ideal) V c).flushed 2 t
      = ((cfg1.win 2).blk t).view.read (Elt Ideal) (Cert.Spec.rowNormalize (V c main_v42) (V c main_arg4)) := by
  show (cfg1.win 2).cut (grid1.coords t) ((dat1 V c).after 2 t) = _
  rw [after1_2]
  unfold out1_2
  rw [View.canon_unit_zero zero2]
  simp only [View.ld_unit_zero (S := S20000x64) zero2, View.ld_unit_zero (S := S64) zero1]
  obtain ⟨e0, e1, e2, e3, e4⟩ := idx_facts t
  funext j
  obtain ⟨p, q, rfl⟩ : ∃ (p : Fin 20000) (q : Fin 64), j = ix2 p q := ⟨j 0, j 1, eq_ix2 j⟩
  have ht : t.val < 5 := Nat.lt_of_lt_of_eq t.isLt N_1
  have hp : p.val < 20000 := p.isLt
  let P : Fin 100000 := ⟨t.val * 20000 + p.val, by omega⟩
  have hemb : ((cfg1.win 2).blk t).view.emb (ix2 p q) = ix2 P q := by
    funext a; apply Fin.ext
    match a with
    | ⟨0, _⟩ => show win1_2.index t (0 : Fin 2) * 20000 + 1 * p.val = t.val * 20000 + p.val; omega
    | ⟨1, _⟩ => show win1_2.index t (1 : Fin 2) * 64 + 1 * q.val = q.val; omega
  show k1_pay1 (F := Ideal) (iblk1 V c 0 t) (iblk1 V c 1 t) (ix2 p q)
    = Cert.Spec.rowNormalize (V c main_v42) (V c main_arg4) (((cfg1.win 2).blk t).view.emb (ix2 p q))
  rw [hemb, pay_apply]
  exact rowNormalize_congr _ _ _ _ p P q (fun k => aggBlock_apply V c t p k P rfl) (fun k => biasBlock_apply V c t k)

/-- An index of the result array is in point t's block iff each coordinate is in the block's range on its axis. -/
theorem mem_blk (t : Fin cfg1.N) (i : S100000x64.Idx) :
    i ∈ ((cfg1.win 2).blk t).view.set ↔ ∀ a : Fin 2, win1_2.index t a * S20000x64.size a ≤ (i a).val
      ∧ (i a).val < win1_2.index t a * S20000x64.size a + S20000x64.size a := by
  show i ∈ ((View.whole main_v43).slice (win1_2.rect t)).set ↔ _
  rw [View.set_slice_whole, Rect.mem_set_unit]
  exact Iff.rfl

/-- Every entry of the result array lies in the block of the point its row's quotient by 20000 names, and every point
    writes back. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 20000 < grid1.N := by rw [N_1]; omega
  obtain ⟨e0, e1, e2, e3, e4⟩ := idx_facts ⟨(i 0).val / 20000, hN⟩
  refine ⟨⟨(i 0).val / 20000, hN⟩, flush1_2 _, ?_⟩
  rw [mem_blk]
  intro a
  match a with
  | ⟨0, _⟩ =>
    show win1_2.index ⟨(i 0).val / 20000, hN⟩ (0 : Fin 2) * 20000 ≤ (i 0).val
      ∧ (i 0).val < win1_2.index ⟨(i 0).val / 20000, hN⟩ (0 : Fin 2) * 20000 + 20000
    rw [e3]; show (i 0).val / 20000 * 20000 ≤ (i 0).val ∧ (i 0).val < (i 0).val / 20000 * 20000 + 20000; omega
  | ⟨1, _⟩ =>
    show win1_2.index ⟨(i 0).val / 20000, hN⟩ (1 : Fin 2) * 64 ≤ (i 1).val
      ∧ (i 1).val < win1_2.index ⟨(i 0).val / 20000, hN⟩ (1 : Fin 2) * 64 + 64
    rw [e4]; omega

/-- After region 1 its output array is the row-normalized, rectified, biased aggregate. -/
theorem arr (c : Dev nD) :
    (dat1 (F := Ideal) V c).arrAt 2 cfg1.N = Cert.Spec.rowNormalize (V c main_v42) (V c main_arg4) :=
  (dat1 (F := Ideal) V c).arrAt_eq_of_cover 2 _ (fun t _ => flushed_eq V c t) cover

end Cert.KernelIdeal.Region1

end
-- ==== Proof.Region2.lean ====
/-
  Region 2: the second layer's matrix product with the two weight matrices side by side, computed 20000 rows at a time over five grid points.
  After the run the output array holds, entry by entry, the product of the two input arrays as the region found them.

  The road: the body's stored value at an entry (p, q) of a block is the sum over k of the left block at (p, k) times the
  right block at (k, q); at grid point t the left block is rows 20000·t … 20000·t + 19999 of the left array, the right
  block is the whole right array, and the written block is rows 20000·t … 20000·t + 19999 of the output array; the five
  blocks cover the 100000 rows, so the array ends holding the product.
-/
import proofs.«408827_j68427418960020_4_alg».proof.Proof.Gen.KernelIdeal.Frame
import proofs.«408827_j68427418960020_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

-- The buffers' contents when the region is entered: a parameter.
variable (V : (c : Dev nD) → (b : Ref sig .tc) → Buf (Elt Ideal) ((c : Thread nD τ).loc b))

/-! ## The block product at an entry -/

/-- The left operand's row coordinate is the output's row. -/
theorem lhs_row (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- The left operand's column coordinate is the contraction index. -/
theorem lhs_col (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- The right operand's row coordinate is the contraction index. -/
theorem rhs_row (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- The right operand's column coordinate is the output's column. -/
theorem rhs_col (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- Entry (p, q) of the body's stored value: the sum over k of the left block at (p, k) times the right block at (k, q). -/
theorem product_entry (x0 : Vec Ideal S20000x64 .f32) (x1 : Vec Ideal S64x64 .f32) (p : Fin 20000) (q : Fin 64) :
    k2_pay1 x0 x1 (ix2 p q) = ∑ k : Fin 64, x0 (ix2 p k) * x1 (ix2 k q) := by
  unfold k2_pay1
  simp only [shapeCast_self]
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 p q) ((ValueIdx.contrEquiv1 dot_S20000x64_S64x64_S20000x64_1_0_0_1_n_n 64 rfl rfl).symm k) = ix2 p k := funext fun a => Fin.ext (by
    match a with
    | ⟨0, _⟩ => exact lhs_row _ _
    | ⟨1, _⟩ => exact (lhs_col _ _).trans hk)
  have er : dot_S20000x64_S64x64_S20000x64_1_0_0_1_n_n.rhsIdx (ix2 p q) ((ValueIdx.contrEquiv1 dot_S20000x64_S64x64_S20000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## Where each block sits in its array -/

theorem zero_offsets : (![0, 0] : Fin 2 → Nat) = fun _ => 0 := funext fun a => by fin_cases a <;> rfl

/-- The block indices over the grid: at point t the left window and the output window are at block row t, block
    column 0; the right window stays at block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t, at (p, k), is the left array at row 20000·t + p, column k. -/
theorem left_block (c : Dev nD) (t : Fin cfg2.N) (p : Fin 20000) (k : Fin 64) (r : Fin 100000)
    (hr : r.val = t.val * 20000 + p.val) :
    (iblk2 V c 0 t : Vec Ideal S20000x64 .f32) (ix2 p k) = (V c main_v43 : S100000x64.Idx → EReal) (ix2 r k) := by
  obtain ⟨e0, e1, -, -, -, -⟩ := block_indices t
  unfold iblk2
  rw [View.read_apply]
  show V c main_v43 _ = V c main_v43 (ix2 r k)
  refine congrArg _ ?_
  funext a
  apply Fin.ext
  match a with
  | ⟨0, _⟩ => show win2_0.index t (0 : Fin 2) * 20000 + 1 * p.val = r.val; rw [e0, hr]; omega
  | ⟨1, _⟩ => show win2_0.index t (1 : Fin 2) * 64 + 1 * k.val = k.val; rw [e1]; omega

/-- The right window's block at any point, at (k, q), is the right array at (k, q). -/
theorem right_block (c : Dev nD) (t : Fin cfg2.N) (k : Fin 64) (q : Fin 64) :
    (iblk2 V c 1 t : Vec Ideal S64x64 .f32) (ix2 k q) = (V c main_v44 : S64x64.Idx → EReal) (ix2 k q) := by
  obtain ⟨-, -, e2, e3, -, -⟩ := block_indices t
  unfold iblk2
  rw [View.read_apply]
  show V c main_v44 _ = V c main_v44 (ix2 k q)
  refine congrArg _ ?_
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-! ## What a point writes back -/

/-- What point t writes back is block t of the product of the two arrays as the region found them. -/
theorem flushed_eq (c : Dev nD) (t : Fin cfg2.N) :
    (dat2 (F := Ideal) V c).flushed 2 t
      = ((cfg2.win 2).blk t).view.read (Elt Ideal) (Cert.Spec.mm (V c main_v43) (V c main_v44)) := by
  show (cfg2.win 2).cut (grid2.coords t) ((dat2 V c).after 2 t) = _
  rw [after2_2]
  unfold out2_2
  rw [View.canon_unit_zero zero_offsets]
  simp only [View.ld_unit_zero (S := S20000x64) zero_offsets, View.ld_unit_zero (S := S64x64) zero_offsets]
  obtain ⟨-, -, -, -, e4, e5⟩ := block_indices t
  funext j
  obtain ⟨p, q, rfl⟩ : ∃ (p : Fin 20000) (q : Fin 64), j = ix2 p q := ⟨j 0, j 1, eq_ix2 j⟩
  show k2_pay1 (iblk2 V c 0 t) (iblk2 V c 1 t) (ix2 p q)
    = Cert.Spec.mm (V c main_v43) (V c main_v44) (((cfg2.win 2).blk t).view.emb (ix2 p q))
  rw [product_entry]
  unfold Cert.Spec.mm
  refine Finset.sum_congr rfl fun k _ => ?_
  have hr : ((((cfg2.win 2).blk t).view.emb (ix2 p q) : S100000x64.Idx) 0).val = t.val * 20000 + p.val := by
    show win2_2.index t (0 : Fin 2) * 20000 + 1 * p.val = _; rw [e4]; omega
  have hc : ((((cfg2.win 2).blk t).view.emb (ix2 p q) : S100000x64.Idx) 1).val = q.val := by
    show win2_2.index t (1 : Fin 2) * 64 + 1 * q.val = _; rw [e5]; omega
  have hq : Cert.Spec.colOf (((cfg2.win 2).blk t).view.emb (ix2 p q) : S100000x64.Idx) = q := Fin.ext hc
  rw [left_block V c t p k (Cert.Spec.rowOf (((cfg2.win 2).blk t).view.emb (ix2 p q) : S100000x64.Idx)) hr,
    right_block V c t k q, hq]

/-! ## The blocks cover the array -/

/-- An index of the output array is in point t's block iff each coordinate is in the block's range on its axis. -/
theorem mem_blk (t : Fin cfg2.N) (i : S100000x64.Idx) :
    i ∈ ((cfg2.win 2).blk t).view.set ↔ ∀ a : Fin 2, win2_2.index t a * S20000x64.size a ≤ (i a).val
      ∧ (i a).val < win2_2.index t a * S20000x64.size a + S20000x64.size a := by
  show i ∈ ((View.whole main_v46).slice (win2_2.rect t)).set ↔ _
  rw [View.set_slice_whole, Rect.mem_set_unit]
  exact Iff.rfl

/-- Row r of the output array lies in the block of point r / 20000, and every point writes its block back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 5 := N_2
  let t : Fin cfg2.N := ⟨(i 0).val / 20000, by show (i 0).val / 20000 < grid2.N; rw [hN]; omega⟩
  have ht : t.val = (i 0).val / 20000 := rfl
  obtain ⟨-, -, -, -, e4, e5⟩ := block_indices t
  refine ⟨t, flush2_2 t, ?_⟩
  rw [mem_blk]
  intro a
  match a with
  | ⟨0, _⟩ =>
    show win2_2.index t (0 : Fin 2) * 20000 ≤ (i 0).val ∧ (i 0).val < win2_2.index t (0 : Fin 2) * 20000 + 20000
    rw [e4, ht]; omega
  | ⟨1, _⟩ =>
    show win2_2.index t (1 : Fin 2) * 64 ≤ (i 1).val ∧ (i 1).val < win2_2.index t (1 : Fin 2) * 64 + 64
    rw [e5]; omega

/-! ## The array after the region -/

/-- After region 2 its output array is the matrix product of the hidden features and the 64-column weight matrix. -/
theorem arr (c : Dev nD) :
    (dat2 (F := Ideal) V c).arrAt 2 cfg2.N = Cert.Spec.mm (V c main_v43) (V c main_v44) :=
  (dat2 (F := Ideal) V c).arrAt_eq_of_cover 2 _ (fun t _ => flushed_eq V c t) cover

end Cert.KernelIdeal.Region2

end
-- ==== Proof.Region3.lean ====
/-
  Region 3: the second layer's epilogue, 5000 rows at a time over twenty grid points: add the 64-entry bias, split the
  columns into the mean (left half) and the log-deviation (right half), and draw z = mean + noise * exp(clamped log-deviation).
-/
import proofs.«408827_j68427418960020_4_alg».proof.Proof.Gen.KernelIdeal.Frame
import proofs.«408827_j68427418960020_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

-- the buffers' contents when the region is entered: a parameter of every statement below
variable (V : (c : Dev nD) → (b : Ref sig .tc) → Buf (Elt Ideal) ((c : Thread nD τ).loc b))

/-- The zero offsets of a rank-2 block, as a constant function. -/
theorem zero_off2 : (![0, 0] : Fin 2 → Nat) = fun _ => 0 := funext fun a => by fin_cases a <;> rfl
/-- The zero offset of a rank-1 block, as a constant function. -/
theorem zero_off1 : (![0] : Fin 1 → Nat) = fun _ => 0 := funext fun a => by fin_cases a; rfl

set_option maxHeartbeats 400000 in
/-- The bias-added block at row p, column q: the block's entry plus the bias's entry q. -/
theorem biased_entry (x0 : Vec Ideal S5000x64 .f32) (x1 : Vec Ideal S64 .f32) (p : Fin 5000) (q : Fin 64) :
    k3_pay1 (F := Ideal) x0 x1 (ix2 p q) = x0 (ix2 p q) + x1 (ix1 q) := by
  unfold k3_pay1
  show (shapeCast S5000x64 x0 shapeCasts_S5000x64_S5000x64) (ix2 p q)
      + (broadcastTo S5000x64 (shapeCast S1x64 (shapeCast S64 x1 shapeCasts_S64_S64) shapeCasts_S64_S1x64) broadcasts_S1x64_S5000x64) (ix2 p q) = _
  rw [shapeCast_self, shapeCast_self]
  refine congrArg (x0 (ix2 p q) + ·) ?_
  refine (broadcastTo_apply _ _ (ix2 p q) (ix2 (0 : Fin 1) q) (fun a => ?_)).trans ?_
  · match a with
    | ⟨0, _⟩ => rfl
    | ⟨1, _⟩ => rfl
  · refine (shapeCast_addUnit_apply ![64] x1 shapeCasts_S64_S1x64 (ix2 (0 : Fin 1) q)).trans ?_
    exact congrArg x1 (funext fun d => by match d with | ⟨0, _⟩ => rfl)

set_option maxHeartbeats 400000 in
/-- The mean's block at row p, column q: the left half of the bias-added block. -/
theorem mean_entry (x0 : Vec Ideal S5000x64 .f32) (x1 : Vec Ideal S64 .f32) (p : Fin 5000) (q : Fin 32) :
    k3_pay2 (F := Ideal) x0 x1 (ix2 p q)
      = x0 (ix2 p ⟨q.val, by have := q.isLt; omega⟩) + x1 (ix1 ⟨q.val, by have := q.isLt; omega⟩) := by
  have hq : q.val < 64 := by have := q.isLt; omega
  have e : extractStridedSlice S5000x32 ![0, 0] (k3_pay1 (F := Ideal) x0 x1) slices_S5000x64_o0_0_S5000x32 (ix2 p q)
      = k3_pay1 (F := Ideal) x0 x1 (ix2 p ⟨q.val, hq⟩) :=
    extractStridedSlice_apply (s := S5000x64) (t := S5000x32) ![0, 0] (k3_pay1 (F := Ideal) x0 x1) slices_S5000x64_o0_0_S5000x32 (ix2 p q)
      (ix2 p ⟨q.val, hq⟩) (fun a => by
        match a with
        | ⟨0, _⟩ => show p.val = 0 + p.val; omega
        | ⟨1, _⟩ => show q.val = 0 + q.val; omega)
  exact e.trans (biased_entry x0 x1 p ⟨q.val, hq⟩)

set_option maxHeartbeats 400000 in
/-- The log-deviation's block at row p, column q: the right half of the bias-added block. -/
theorem logdev_entry (x0 : Vec Ideal S5000x64 .f32) (x1 : Vec Ideal S64 .f32) (p : Fin 5000) (q : Fin 32) :
    k3_pay3 (F := Ideal) x0 x1 (ix2 p q)
      = x0 (ix2 p ⟨q.val + 32, by have := q.isLt; omega⟩) + x1 (ix1 ⟨q.val + 32, by have := q.isLt; omega⟩) := by
  have hq : q.val + 32 < 64 := by have := q.isLt; omega
  have e : extractStridedSlice S5000x32 ![0, 32] (k3_pay1 (F := Ideal) x0 x1) slices_S5000x64_o0_32_S5000x32 (ix2 p q)
      = k3_pay1 (F := Ideal) x0 x1 (ix2 p ⟨q.val + 32, hq⟩) :=
    extractStridedSlice_apply (s := S5000x64) (t := S5000x32) ![0, 32] (k3_pay1 (F := Ideal) x0 x1) slices_S5000x64_o0_32_S5000x32 (ix2 p q)
      (ix2 p ⟨q.val + 32, hq⟩) (fun a => by
        match a with
        | ⟨0, _⟩ => show p.val = 0 + p.val; omega
        | ⟨1, _⟩ => show q.val + 32 = 32 + q.val; omega)
  exact e.trans (biased_entry x0 x1 p ⟨q.val + 32, hq⟩)

set_option maxHeartbeats 400000 in
/-- The drawn latent's block at an entry: the mean there plus the noise there times the exponential of the clamped
    log-deviation there. -/
theorem latent_entry (x0 : Vec Ideal S5000x64 .f32) (x1 : Vec Ideal S64 .f32) (x2 : Vec Ideal S5000x32 .f32)
    (j : S5000x32.Idx) :
    k3_pay4 (F := Ideal) x0 x1 x2 j
      = k3_pay2 (F := Ideal) x0 x1 j + x2 j * Ideal.exp (Cert.Spec.clamp10 (k3_pay3 (F := Ideal) x0 x1 j)) := rfl

/-- The printed index maps over the twenty grid points: the row-blocked windows sit at block row t, block column 0;
    the bias window stays at block 0. -/
theorem block_rows : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

set_option maxHeartbeats 400000 in
/-- The aggregated matrix's block at point t holds its rows 5000 t … 5000 t + 4999. -/
theorem agg_block_entry (c : Dev nD) (t : Fin cfg3.N) (x : S5000x64.Idx) (k : S100000x64.Idx)
    (hk0 : (k 0).val = 5000 * t.val + (x 0).val) (hk1 : (k 1).val = (x 1).val) :
    (iblk3 (F := Ideal) V c 0 t : Vec Ideal S5000x64 .f32) x = (V c main_v59 : S100000x64.Idx → Elt Ideal .f32) k := by
  obtain ⟨e0, e1, -⟩ := block_rows t
  unfold iblk3
  rw [View.read_apply]
  show V c main_v59 _ = V c main_v59 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

set_option maxHeartbeats 400000 in
/-- The bias's block at every point is the whole bias. -/
theorem bias_block_entry (c : Dev nD) (t : Fin cfg3.N) (x : S64.Idx) :
    (iblk3 (F := Ideal) V c 1 t : Vec Ideal S64 .f32) x = (V c main_v45 : S64.Idx → Elt Ideal .f32) x := by
  obtain ⟨-, -, e, -⟩ := block_rows t
  unfold iblk3
  rw [View.read_apply]
  show V c main_v45 _ = V c main_v45 _
  congr 1
  funext a
  apply Fin.ext
  match a with
  | ⟨0, _⟩ => show win3_1.index t 0 * 64 + 1 * (x 0).val = (x 0).val; rw [e]; omega

set_option maxHeartbeats 400000 in
/-- The noise matrix's block at point t holds its rows 5000 t … 5000 t + 4999. -/
theorem noise_block_entry (c : Dev nD) (t : Fin cfg3.N) (x : S5000x32.Idx) (k : S100000x32.Idx)
    (hk0 : (k 0).val = 5000 * t.val + (x 0).val) (hk1 : (k 1).val = (x 1).val) :
    (iblk3 (F := Ideal) V c 2 t : Vec Ideal S5000x32 .f32) x = (V c main_arg2 : S100000x32.Idx → Elt Ideal .f32) k := by
  obtain ⟨-, -, -, e0, e1, -⟩ := block_rows t
  unfold iblk3
  rw [View.read_apply]
  show V c main_arg2 _ = V c main_arg2 _
  congr 1
  funext a
  apply Fin.ext
  match a with
  | ⟨0, _⟩ => show win3_2.index t 0 * 5000 + 1 * (x 0).val = (k 0).val; rw [e0, hk0]; omega
  | ⟨1, _⟩ => show win3_2.index t 1 * 32 + 1 * (x 1).val = (k 1).val; rw [e1, hk1]; omega

/-- The mean's block at a general entry of the block. -/
theorem mean_at (x0 : Vec Ideal S5000x64 .f32) (x1 : Vec Ideal S64 .f32) (j : S5000x32.Idx) :
    k3_pay2 (F := Ideal) x0 x1 j
      = x0 (ix2 (Cert.Spec.rowOf j) ⟨(j 1).val, by have := idx2_lt1 j; omega⟩)
        + x1 (ix1 ⟨(j 1).val, by have := idx2_lt1 j; omega⟩) := by
  obtain ⟨p, q, rfl⟩ : ∃ (p : Fin 5000) (q : Fin 32), j = ix2 p q := ⟨j 0, j 1, eq_ix2 j⟩
  exact mean_entry x0 x1 p q

/-- The log-deviation's block at a general entry of the block. -/
theorem logdev_at (x0 : Vec Ideal S5000x64 .f32) (x1 : Vec Ideal S64 .f32) (j : S5000x32.Idx) :
    k3_pay3 (F := Ideal) x0 x1 j
      = x0 (ix2 (Cert.Spec.rowOf j) ⟨(j 1).val + 32, by have := idx2_lt1 j; omega⟩)
        + x1 (ix1 ⟨(j 1).val + 32, by have := idx2_lt1 j; omega⟩) := by
  obtain ⟨p, q, rfl⟩ : ∃ (p : Fin 5000) (q : Fin 32), j = ix2 p q := ⟨j 0, j 1, eq_ix2 j⟩
  exact logdev_entry x0 x1 p q

set_option maxHeartbeats 400000 in
/-- Block t of the mean, entry by entry: the mean read at row 5000 t + the row inside the block. -/
theorem mean_of_blocks (c : Dev nD) (t : Fin cfg3.N) (j : S5000x32.Idx) (i : S100000x32.Idx)
    (hi0 : (i 0).val = 5000 * t.val + (j 0).val) (hi1 : (i 1).val = (j 1).val) :
    k3_pay2 (F := Ideal) (iblk3 (F := Ideal) V c 0 t) (iblk3 (F := Ideal) V c 1 t) j
      = Cert.Spec.muOf (V c main_v59) (V c main_v45) i := by
  refine (mean_at (iblk3 (F := Ideal) V c 0 t) (iblk3 (F := Ideal) V c 1 t) j).trans ?_
  unfold Cert.Spec.muOf
  refine congrArg₂ (· + ·) ?_ ?_
  · exact agg_block_entry V c t _ _ hi0 hi1
  · refine (bias_block_entry V c t _).trans ?_
    exact congrArg (V c main_v45 : S64.Idx → Elt Ideal .f32) (funext fun d => by
      match d with | ⟨0, _⟩ => exact Fin.ext hi1.symm)

set_option maxHeartbeats 400000 in
/-- Block t of the log-deviation, entry by entry. -/
theorem logdev_of_blocks (c : Dev nD) (t : Fin cfg3.N) (j : S5000x32.Idx) (i : S100000x32.Idx)
    (hi0 : (i 0).val = 5000 * t.val + (j 0).val) (hi1 : (i 1).val = (j 1).val) :
    k3_pay3 (F := Ideal) (iblk3 (F := Ideal) V c 0 t) (iblk3 (F := Ideal) V c 1 t) j
      = Cert.Spec.lsOf (V c main_v59) (V c main_v45) i := by
  refine (logdev_at (iblk3 (F := Ideal) V c 0 t) (iblk3 (F := Ideal) V c 1 t) j).trans ?_
  unfold Cert.Spec.lsOf
  refine congrArg₂ (· + ·) ?_ ?_
  · exact agg_block_entry V c t _ _ hi0 (by show (i 1).val + 32 = (j 1).val + 32; omega)
  · refine (bias_block_entry V c t _).trans ?_
    exact congrArg (V c main_v45 : S64.Idx → Elt Ideal .f32) (funext fun d => by
      match d with | ⟨0, _⟩ => exact Fin.ext (by show (j 1).val + 32 = (i 1).val + 32; omega))

set_option maxHeartbeats 400000 in
/-- Block t of the drawn latent, entry by entry. -/
theorem latent_of_blocks (c : Dev nD) (t : Fin cfg3.N) (j : S5000x32.Idx) (i : S100000x32.Idx)
    (hi0 : (i 0).val = 5000 * t.val + (j 0).val) (hi1 : (i 1).val = (j 1).val) :
    k3_pay4 (F := Ideal) (iblk3 (F := Ideal) V c 0 t) (iblk3 (F := Ideal) V c 1 t) (iblk3 (F := Ideal) V c 2 t) j
      = Cert.Spec.zOf (V c main_v59) (V c main_v45) (V c main_arg2) i := by
  refine (latent_entry (iblk3 (F := Ideal) V c 0 t) (iblk3 (F := Ideal) V c 1 t) (iblk3 (F := Ideal) V c 2 t) j).trans ?_
  unfold Cert.Spec.zOf
  rw [mean_of_blocks V c t j i hi0 hi1, logdev_of_blocks V c t j i hi0 hi1]
  refine congrArg (fun e => Cert.Spec.muOf (V c main_v59) (V c main_v45) i
    + e * Ideal.exp (Cert.Spec.clamp10 (Cert.Spec.lsOf (V c main_v59) (V c main_v45) i))) ?_
  exact noise_block_entry V c t j i hi0 hi1

set_option maxHeartbeats 400000 in
/-- What point t writes back into the mean's array is block t of the mean. -/
theorem flushed_mean (c : Dev nD) (t : Fin cfg3.N) :
    (dat3 (F := Ideal) V c).flushed 3 t
      = ((cfg3.win 3).blk t).view.read (Elt Ideal) (Cert.Spec.muOf (V c main_v59) (V c main_v45)) := by
  show (cfg3.win 3).cut (grid3.coords t) ((dat3 (F := Ideal) V c).after 3 t) = _
  rw [after3_3]
  unfold out3_3
  rw [View.canon_unit_zero zero_off2]
  simp only [View.ld_unit_zero (S := S5000x64) zero_off2, View.ld_unit_zero (S := S64) zero_off1]
  obtain ⟨-, -, -, -, -, e0, e1, -⟩ := block_rows t
  funext j
  rw [View.read_apply]
  refine mean_of_blocks V c t j _ ?_ ?_
  · show win3_3.index t 0 * 5000 + 1 * (j 0).val = 5000 * t.val + (j 0).val
    rw [e0]; omega
  · show win3_3.index t 1 * 32 + 1 * (j 1).val = (j 1).val
    rw [e1]; omega

/-- An index of the mean's array lies in point t's block iff each coordinate lies in the block's range on its axis. -/
theorem mem_mean_block (t : Fin cfg3.N) (i : S100000x32.Idx) :
    i ∈ ((cfg3.win 3).blk t).view.set ↔ ∀ a : Fin 2, win3_3.index t a * S5000x32.size a ≤ (i a).val
      ∧ (i a).val < win3_3.index t a * S5000x32.size a + S5000x32.size a := by
  show i ∈ ((View.whole main_v60_0).slice (win3_3.rect t)).set ↔ _
  rw [View.set_slice_whole, Rect.mem_set_unit]
  exact Iff.rfl

set_option maxHeartbeats 400000 in
/-- Every index of the mean's array lies in the block of the point numbered by its row divided by 5000, and every point
    writes its block back. -/
theorem mean_cover (i : S100000x32.Idx) :
    ∃ t : Fin cfg3.N, (cfg3.win 3).flush t = true ∧ i ∈ ((cfg3.win 3).blk t).view.set := by
  have hi0 : (i 0).val < 100000 := idx2_lt0 i
  have hi1 : (i 1).val < 32 := idx2_lt1 i
  have hN : cfg3.N = 20 := N_3
  obtain ⟨t, ht⟩ : ∃ t : Fin cfg3.N, t.val = (i 0).val / 5000 :=
    ⟨⟨(i 0).val / 5000, lt_of_lt_of_eq (by omega : (i 0).val / 5000 < 20) hN.symm⟩, rfl⟩
  obtain ⟨-, -, -, -, -, e0, e1, -⟩ := block_rows t
  refine ⟨t, flush3_3 t, ?_⟩
  rw [mem_mean_block]
  intro a
  match a with
  | ⟨0, _⟩ =>
    show win3_3.index t 0 * 5000 ≤ (i 0).val ∧ (i 0).val < win3_3.index t 0 * 5000 + 5000
    rw [e0, ht]; omega
  | ⟨1, _⟩ =>
    show win3_3.index t 1 * 32 ≤ (i 1).val ∧ (i 1).val < win3_3.index t 1 * 32 + 32
    rw [e1]; omega

set_option maxHeartbeats 400000 in
/-- What point t writes back into the log-deviation's array is block t of the log-deviation. -/
theorem flushed_logdev (c : Dev nD) (t : Fin cfg3.N) :
    (dat3 (F := Ideal) V c).flushed 4 t
      = ((cfg3.win 4).blk t).view.read (Elt Ideal) (Cert.Spec.lsOf (V c main_v59) (V c main_v45)) := by
  show (cfg3.win 4).cut (grid3.coords t) ((dat3 (F := Ideal) V c).after 4 t) = _
  rw [after3_4]
  unfold out3_4
  rw [View.canon_unit_zero zero_off2]
  simp only [View.ld_unit_zero (S := S5000x64) zero_off2, View.ld_unit_zero (S := S64) zero_off1]
  obtain ⟨-, -, -, -, -, -, -, e0, e1, -⟩ := block_rows t
  funext j
  rw [View.read_apply]
  refine logdev_of_blocks V c t j _ ?_ ?_
  · show win3_4.index t 0 * 5000 + 1 * (j 0).val = 5000 * t.val + (j 0).val
    rw [e0]; omega
  · show win3_4.index t 1 * 32 + 1 * (j 1).val = (j 1).val
    rw [e1]; omega

/-- An index of the log-deviation's array lies in point t's block iff each coordinate lies in the block's range on its axis. -/
theorem mem_logdev_block (t : Fin cfg3.N) (i : S100000x32.Idx) :
    i ∈ ((cfg3.win 4).blk t).view.set ↔ ∀ a : Fin 2, win3_4.index t a * S5000x32.size a ≤ (i a).val
      ∧ (i a).val < win3_4.index t a * S5000x32.size a + S5000x32.size a := by
  show i ∈ ((View.whole main_v60_1).slice (win3_4.rect t)).set ↔ _
  rw [View.set_slice_whole, Rect.mem_set_unit]
  exact Iff.rfl

set_option maxHeartbeats 400000 in
/-- Every index of the log-deviation's array lies in the block of the point numbered by its row divided by 5000, and every point
    writes its block back. -/
theorem logdev_cover (i : S100000x32.Idx) :
    ∃ t : Fin cfg3.N, (cfg3.win 4).flush t = true ∧ i ∈ ((cfg3.win 4).blk t).view.set := by
  have hi0 : (i 0).val < 100000 := idx2_lt0 i
  have hi1 : (i 1).val < 32 := idx2_lt1 i
  have hN : cfg3.N = 20 := N_3
  obtain ⟨t, ht⟩ : ∃ t : Fin cfg3.N, t.val = (i 0).val / 5000 :=
    ⟨⟨(i 0).val / 5000, lt_of_lt_of_eq (by omega : (i 0).val / 5000 < 20) hN.symm⟩, rfl⟩
  obtain ⟨-, -, -, -, -, -, -, e0, e1, -⟩ := block_rows t
  refine ⟨t, flush3_4 t, ?_⟩
  rw [mem_logdev_block]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 32 ≤ (i 1).val ∧ (i 1).val < win3_4.index t 1 * 32 + 32
    rw [e1]; omega

set_option maxHeartbeats 400000 in
/-- What point t writes back into the drawn latent's array is block t of the drawn latent. -/
theorem flushed_latent (c : Dev nD) (t : Fin cfg3.N) :
    (dat3 (F := Ideal) V c).flushed 5 t
      = ((cfg3.win 5).blk t).view.read (Elt Ideal) (Cert.Spec.zOf (V c main_v59) (V c main_v45) (V c main_arg2)) := by
  show (cfg3.win 5).cut (grid3.coords t) ((dat3 (F := Ideal) V c).after 5 t) = _
  rw [after3_5]
  unfold out3_5
  rw [View.canon_unit_zero zero_off2]
  simp only [View.ld_unit_zero (S := S5000x64) zero_off2, View.ld_unit_zero (S := S64) zero_off1, View.ld_unit_zero (S := S5000x32) zero_off2]
  obtain ⟨-, -, -, -, -, -, -, -, -, e0, e1⟩ := block_rows t
  funext j
  rw [View.read_apply]
  refine latent_of_blocks V c t j _ ?_ ?_
  · show win3_5.index t 0 * 5000 + 1 * (j 0).val = 5000 * t.val + (j 0).val
    rw [e0]; omega
  · show win3_5.index t 1 * 32 + 1 * (j 1).val = (j 1).val
    rw [e1]; omega

/-- An index of the drawn latent's array lies in point t's block iff each coordinate lies in the block's range on its axis. -/
theorem mem_latent_block (t : Fin cfg3.N) (i : S100000x32.Idx) :
    i ∈ ((cfg3.win 5).blk t).view.set ↔ ∀ a : Fin 2, win3_5.index t a * S5000x32.size a ≤ (i a).val
      ∧ (i a).val < win3_5.index t a * S5000x32.size a + S5000x32.size a := by
  show i ∈ ((View.whole main_v60_2).slice (win3_5.rect t)).set ↔ _
  rw [View.set_slice_whole, Rect.mem_set_unit]
  exact Iff.rfl

set_option maxHeartbeats 400000 in
/-- Every index of the drawn latent's array lies in the block of the point numbered by its row divided by 5000, and every point
    writes its block back. -/
theorem latent_cover (i : S100000x32.Idx) :
    ∃ t : Fin cfg3.N, (cfg3.win 5).flush t = true ∧ i ∈ ((cfg3.win 5).blk t).view.set := by
  have hi0 : (i 0).val < 100000 := idx2_lt0 i
  have hi1 : (i 1).val < 32 := idx2_lt1 i
  have hN : cfg3.N = 20 := N_3
  obtain ⟨t, ht⟩ : ∃ t : Fin cfg3.N, t.val = (i 0).val / 5000 :=
    ⟨⟨(i 0).val / 5000, lt_of_lt_of_eq (by omega : (i 0).val / 5000 < 20) hN.symm⟩, rfl⟩
  obtain ⟨-, -, -, -, -, -, -, -, -, e0, e1⟩ := block_rows t
  refine ⟨t, flush3_5 t, ?_⟩
  rw [mem_latent_block]
  intro a
  match a with
  | ⟨0, _⟩ =>
    show win3_5.index t 0 * 5000 ≤ (i 0).val ∧ (i 0).val < win3_5.index t 0 * 5000 + 5000
    rw [e0, ht]; omega
  | ⟨1, _⟩ =>
    show win3_5.index t 1 * 32 ≤ (i 1).val ∧ (i 1).val < win3_5.index t 1 * 32 + 32
    rw [e1]; omega

/-- After region 3 the first output array is the mean. -/
theorem arr_mu (c : Dev nD) :
    (dat3 (F := Ideal) V c).arrAt 3 cfg3.N = Cert.Spec.muOf (V c main_v59) (V c main_v45) :=
  (dat3 (F := Ideal) V c).arrAt_eq_of_cover 3 _ (fun t _ => flushed_mean V c t) mean_cover

/-- After region 3 the second output array is the log-deviation. -/
theorem arr_ls (c : Dev nD) :
    (dat3 (F := Ideal) V c).arrAt 4 cfg3.N = Cert.Spec.lsOf (V c main_v59) (V c main_v45) :=
  (dat3 (F := Ideal) V c).arrAt_eq_of_cover 4 _ (fun t _ => flushed_logdev V c t) logdev_cover

/-- After region 3 the third output array is the drawn latent. -/
theorem arr_z (c : Dev nD) :
    (dat3 (F := Ideal) V c).arrAt 5 cfg3.N = Cert.Spec.zOf (V c main_v59) (V c main_v45) (V c main_arg2) :=
  (dat3 (F := Ideal) V c).arrAt_eq_of_cover 5 _ (fun t _ => flushed_latent V c t) latent_cover

end Cert.KernelIdeal.Region3

end
-- ==== Proof.Region4.lean ====
/-
  Region 4: the decoder, 8192 edges at a time over 196 grid points: the logistic function of the inner product of the two
  gathered rows of the latent.
-/
import proofs.«408827_j68427418960020_4_alg».proof.Proof.Gen.KernelIdeal.Frame
import proofs.«408827_j68427418960020_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a rank-2 block, spelt as a constant function. -/
theorem zeros2 : (![0, 0] : Fin 2 → Nat) = fun _ => 0 :=
  funext fun a => match a with | ⟨0, _⟩ => rfl | ⟨1, _⟩ => rfl

/-- The zero offset of a rank-1 block, spelt as a constant function. -/
theorem zeros1 : (![0] : Fin 1 → Nat) = fun _ => 0 :=
  funext fun a => match a with | ⟨0, _⟩ => rfl

/-- Summing a [8192, 32] block over its second axis: the source index over row `r` with column `k` inserted is (r, k). -/
theorem lift_row (r : Fin 8192) (k : Fin 32) :
    reduces_S8192x32_S8192.lift (ix1 r) k = ix2 r k :=
  funext fun a => Fin.ext (match a with | ⟨0, _⟩ => rfl | ⟨1, _⟩ => rfl)

set_option maxHeartbeats 400000 in
/-- The body's payload at edge `r` of a block: the logistic function of the inner product of row `r` of the two blocks. -/
theorem payload_apply (x0 x1 : Vec Ideal S8192x32 .f32) (r : Fin 8192) :
    k4_pay1 (F := Ideal) x0 x1 (ix1 r) = Ideal.logistic (∑ k : Fin 32, x0 (ix2 r k) * x1 (ix2 r k)) := by
  unfold k4_pay1
  simp only [shapeCast_self]
  show Ideal.logistic (multiReduction (F := Ideal) .add [1] S8192 (mulf x0 x1) 0x00000000#32 reduces_S8192x32_S8192 (.inl rfl) rfl (ix1 r)) = _
  congr 1
  refine (Ideal.multiReduction_add_single (mulf x0 x1) 0x00000000#32 reduces_S8192x32_S8192 (.inl rfl) rfl (ix1 r)).trans ?_
  refine Finset.sum_congr rfl fun k _ => ?_
  rw [mulf_apply]
  show x0 (reduces_S8192x32_S8192.lift (ix1 r) k) * x1 (reduces_S8192x32_S8192.lift (ix1 r) k) = x0 (ix2 r k) * x1 (ix2 r k)
  rw [lift_row r k]

/-- The score of edge `i` of the whole arrays is the payload at entry `j` of two blocks whose row `j` is row `i` of the arrays. -/
theorem block_score (x0 x1 : Vec Ideal S8192x32 .f32) (zs zd : Cert.Spec.Mat 1605632 32) (j : S8192.Idx) (i : S1605632.Idx)
    (h0 : ∀ k : Fin 32, x0 (ix2 (Cert.Spec.posOf j) k) = zs (ix2 (Cert.Spec.posOf i) k))
    (h1 : ∀ k : Fin 32, x1 (ix2 (Cert.Spec.posOf j) k) = zd (ix2 (Cert.Spec.posOf i) k)) :
    k4_pay1 (F := Ideal) x0 x1 j = Cert.Spec.edgeScore zs zd i := by
  obtain ⟨r, rfl⟩ : ∃ r : Fin 8192, j = ix1 r := ⟨j 0, eq_ix1 j⟩
  rw [payload_apply]
  show _ = Ideal.logistic (∑ k : Fin 32, zs (ix2 (Cert.Spec.posOf i) k) * zd (ix2 (Cert.Spec.posOf i) k))
  congr 1
  exact Finset.sum_congr rfl fun k _ => by rw [← h0 k, ← h1 k]

set_option maxHeartbeats 400000 in
/-- The printed index maps over the grid: at point `t` all three windows sit at row block `t`, the two inputs at column
    block 0. -/
theorem blocks_at_point : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 1) = t.val :=
  (by decide +kernel : ∀ t : Fin grid4.N, _)

-- The buffers' contents when the region is entered: a parameter.
variable (V : (c : Dev nD) → (b : Ref sig .tc) → Buf (Elt Ideal) ((c : Thread nD τ).loc b))

set_option maxHeartbeats 400000 in
/-- What point `t` writes back: block `t` of the edge scores of the two arrays as the region finds them. Entry `j` of the
    block is edge `8192 t + j`, and row `j` of each input block is row `8192 t + j` of its array. -/
theorem written_back_scores (c : Dev nD) (t : Fin cfg4.N) :
    (dat4 (F := Ideal) V c).flushed 2 t
      = ((cfg4.win 2).blk t).view.read (Elt Ideal) (Cert.Spec.edgeScore (V c main_v69) (V c main_v76)) := by
  show (cfg4.win 2).cut (grid4.coords t) ((dat4 V c).after 2 t) = _
  rw [after4_2]
  unfold out4_2
  rw [View.canon_unit_zero zeros1]
  simp only [View.ld_unit_zero (S := S8192x32) zeros2]
  obtain ⟨e0, e1, e2, e3, e4⟩ := blocks_at_point t
  funext j
  show k4_pay1 (F := Ideal) (iblk4 V c 0 t) (iblk4 V c 1 t) j
    = Cert.Spec.edgeScore (V c main_v69) (V c main_v76) (((cfg4.win 2).blk t).view.emb j)
  refine block_score _ _ _ _ j _ (fun k => ?_) (fun k => ?_)
  · show V c main_v69 (((cfg4.win 0).blk t).view.emb (ix2 (Cert.Spec.posOf j) k))
      = V c main_v69 (ix2 (Cert.Spec.posOf (((cfg4.win 2).blk t).view.emb j)) k)
    refine congrArg (V c main_v69) (funext fun a => Fin.ext ?_)
    match a with
    | ⟨0, _⟩ =>
      show win4_0.index t (0 : Fin 2) * 8192 + 1 * (j 0).val = win4_2.index t (0 : Fin 1) * 8192 + 1 * (j 0).val
      omega
    | ⟨1, _⟩ =>
      show win4_0.index t (1 : Fin 2) * 32 + 1 * k.val = k.val
      omega
  · show V c main_v76 (((cfg4.win 1).blk t).view.emb (ix2 (Cert.Spec.posOf j) k))
      = V c main_v76 (ix2 (Cert.Spec.posOf (((cfg4.win 2).blk t).view.emb j)) k)
    refine congrArg (V c main_v76) (funext fun a => Fin.ext ?_)
    match a with
    | ⟨0, _⟩ =>
      show win4_1.index t (0 : Fin 2) * 8192 + 1 * (j 0).val = win4_2.index t (0 : Fin 1) * 8192 + 1 * (j 0).val
      omega
    | ⟨1, _⟩ =>
      show win4_1.index t (1 : Fin 2) * 32 + 1 * k.val = k.val
      omega

/-- An edge is in point `t`'s block iff it lies in the 8192 consecutive edges from `8192 t` on. -/
theorem mem_block_iff (t : Fin cfg4.N) (i : S1605632.Idx) :
    i ∈ ((cfg4.win 2).blk t).view.set
      ↔ ∀ a : Fin 1, win4_2.index t a * S8192.size a ≤ (i a).val ∧ (i a).val < win4_2.index t a * S8192.size a + S8192.size a := by
  show i ∈ ((View.whole main_v77).slice (win4_2.rect t)).set ↔ _
  rw [View.set_slice_whole, Rect.mem_set_unit]
  exact Iff.rfl

set_option maxHeartbeats 400000 in
/-- Every edge lies in a block that is written back: edge `e` in the block of point `e / 8192` (1605632 = 196 × 8192). -/
theorem every_edge_written (i : S1605632.Idx) :
    ∃ t : Fin cfg4.N, (cfg4.win 2).flush t = true ∧ i ∈ ((cfg4.win 2).blk t).view.set := by
  have hi : (i 0).val < 1605632 := (i 0).isLt
  have hN : cfg4.N = 196 := N_4
  have ht : (i 0).val / 8192 < cfg4.N := by rw [hN]; omega
  obtain ⟨-, -, -, -, e4⟩ := blocks_at_point ⟨(i 0).val / 8192, ht⟩
  refine ⟨⟨(i 0).val / 8192, ht⟩, flush4_2 _, ?_⟩
  rw [mem_block_iff]
  intro a
  match a with
  | ⟨0, _⟩ =>
    show win4_2.index ⟨(i 0).val / 8192, ht⟩ (0 : Fin 1) * 8192 ≤ (i 0).val
      ∧ (i 0).val < win4_2.index ⟨(i 0).val / 8192, ht⟩ (0 : Fin 1) * 8192 + 8192
    rw [e4]
    show (i 0).val / 8192 * 8192 ≤ (i 0).val ∧ (i 0).val < (i 0).val / 8192 * 8192 + 8192
    omega

/-- After region 4 its output array holds every (padded) edge's score. -/
theorem arr (c : Dev nD) :
    (dat4 (F := Ideal) V c).arrAt 2 cfg4.N = Cert.Spec.edgeScore (V c main_v69) (V c main_v76) :=
  (dat4 (F := Ideal) V c).arrAt_eq_of_cover 2 _ (fun t _ => written_back_scores V c t) every_edge_written

end Cert.KernelIdeal.Region4

end
-- ==== Proof.KChain.lean ====
/-
  What the kernel program's buffers hold at each boundary between its segments.

  The program is ten stretches of host operations around five kernel regions.  A host stretch computes its results from
  the contents it finds and leaves every other buffer alone; a region leaves in each of its output arrays the function of
  its input arrays that its module proves, and leaves every buffer it does not stage alone.  Walking the boundaries in
  order: the edge list is prepared exactly as the reference prepares it (the same operations: the source and destination
  words with the self loops appended, the symmetric normalization of every edge); region 0 multiplies the features by the
  first weights; one aggregation pass; region 1 normalizes the rows; the two second-layer weights are joined side by
  side and the two biases end to end; region 2 multiplies; one aggregation pass over the 64 columns; region 3 splits the
  columns into mean and log-deviation and draws the latent; the endpoint lists are padded and the latent's rows gathered;
  region 4 scores the padded edges; the first 1600000 scores are kept.
-/
import proofs.«408827_j68427418960020_4_alg».proof.Proof.Gen.KernelIdeal.Frame
import proofs.«408827_j68427418960020_4_alg».proof.Proof.Gen.ReferenceIdeal.Read
import proofs.«408827_j68427418960020_4_alg».proof.Proof.Spec
import proofs.«408827_j68427418960020_4_alg».proof.Proof.KOps
import proofs.«408827_j68427418960020_4_alg».proof.Proof.Region0
import proofs.«408827_j68427418960020_4_alg».proof.Proof.Region1
import proofs.«408827_j68427418960020_4_alg».proof.Proof.Region2
import proofs.«408827_j68427418960020_4_alg».proof.Proof.Region3
import proofs.«408827_j68427418960020_4_alg».proof.Proof.Region4
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Ops Cert.Spec
open Cert.ReferenceIdeal.Read (val_main_v1 val_main_v3 val_main_v5 val_main_v6 val_main_v28)

variable (m : (ℓ : Loc nD τ sig) → Buf (Elt Ideal) ℓ) (ρ : Dev nD → PrngReg) (c : Dev nD)

/-! ## The arguments as launched -/

abbrev x0 : FVec Ideal S100000x128 .f32 := m ((c.tc : Thread nD τ).loc main_arg0)
abbrev x1 : IVec S2x1600000 32 := m ((c.tc : Thread nD τ).loc main_arg1)
abbrev x2 : FVec Ideal S100000x32 .f32 := m ((c.tc : Thread nD τ).loc main_arg2)
abbrev x3 : FVec Ideal S128x64 .f32 := m ((c.tc : Thread nD τ).loc main_arg3)
abbrev x4 : FVec Ideal S64 .f32 := m ((c.tc : Thread nD τ).loc main_arg4)
abbrev x5 : FVec Ideal S64x32 .f32 := m ((c.tc : Thread nD τ).loc main_arg5)
abbrev x6 : FVec Ideal S32 .f32 := m ((c.tc : Thread nD τ).loc main_arg6)
abbrev x7 : FVec Ideal S64x32 .f32 := m ((c.tc : Thread nD τ).loc main_arg7)
abbrev x8 : FVec Ideal S32 .f32 := m ((c.tc : Thread nD τ).loc main_arg8)

/-! ## After the first host stretch: the prepared edge list -/

theorem b1_arg0 : W1 m ρ c (Proc.devRef .tc main_arg0) = x0 m c := by
  show StableHlo.after hostOps0 (W0 m ρ c) (Proc.devRef .tc main_arg0) = _; after_results_simp
theorem b1_arg2 : W1 m ρ c (Proc.devRef .tc main_arg2) = x2 m c := by
  show StableHlo.after hostOps0 (W0 m ρ c) (Proc.devRef .tc main_arg2) = _; after_results_simp
theorem b1_arg3 : W1 m ρ c (Proc.devRef .tc main_arg3) = x3 m c := by
  show StableHlo.after hostOps0 (W0 m ρ c) (Proc.devRef .tc main_arg3) = _; after_results_simp
theorem b1_arg4 : W1 m ρ c (Proc.devRef .tc main_arg4) = x4 m c := by
  show StableHlo.after hostOps0 (W0 m ρ c) (Proc.devRef .tc main_arg4) = _; after_results_simp
theorem b1_arg5 : W1 m ρ c (Proc.devRef .tc main_arg5) = x5 m c := by
  show StableHlo.after hostOps0 (W0 m ρ c) (Proc.devRef .tc main_arg5) = _; after_results_simp
theorem b1_arg6 : W1 m ρ c (Proc.devRef .tc main_arg6) = x6 m c := by
  show StableHlo.after hostOps0 (W0 m ρ c) (Proc.devRef .tc main_arg6) = _; after_results_simp
theorem b1_arg7 : W1 m ρ c (Proc.devRef .tc main_arg7) = x7 m c := by
  show StableHlo.after hostOps0 (W0 m ρ c) (Proc.devRef .tc main_arg7) = _; after_results_simp
theorem b1_arg8 : W1 m ρ c (Proc.devRef .tc main_arg8) = x8 m c := by
  show StableHlo.after hostOps0 (W0 m ρ c) (Proc.devRef .tc main_arg8) = _; after_results_simp

/-- The source endpoints of the 1600000 edges. -/
theorem b1_v1 : W1 m ρ c (Proc.devRef .tc main_v1) = val_main_v1 (F := Ideal) (x1 m c) := by
  show StableHlo.after hostOps0 (W0 m ρ c) (Proc.devRef .tc main_v1) = _; after_results_simp; try rfl
/-- The destination endpoints of the 1600000 edges. -/
theorem b1_v3 : W1 m ρ c (Proc.devRef .tc main_v3) = val_main_v3 (F := Ideal) (x1 m c) := by
  show StableHlo.after hostOps0 (W0 m ρ c) (Proc.devRef .tc main_v3) = _; after_results_simp; try rfl
/-- The source words of the edges and the self loops. -/
theorem b1_v5 : W1 m ρ c (Proc.devRef .tc main_v5) = val_main_v5 (F := Ideal) (x1 m c) := by
  show StableHlo.after hostOps0 (W0 m ρ c) (Proc.devRef .tc main_v5) = _; after_results_simp; try rfl
/-- The destination words of the edges and the self loops. -/
theorem b1_v6 : W1 m ρ c (Proc.devRef .tc main_v6) = val_main_v6 (F := Ideal) (x1 m c) := by
  show StableHlo.after hostOps0 (W0 m ρ c) (Proc.devRef .tc main_v6) = _; after_results_simp; try rfl
/-- Every edge's symmetric normalization. -/
theorem b1_v28 : W1 m ρ c (Proc.devRef .tc main_v28) = val_main_v28 (F := Ideal) (x1 m c) := by
  show StableHlo.after hostOps0 (W0 m ρ c) (Proc.devRef .tc main_v28) = _; after_results_simp; try rfl

/-! ## The tables along the way, as functions of the arguments -/

/-- The first layer's aggregated table. -/
abbrev table1 : FVec Ideal S100000x64 .f32 := aggregate64 (x1 m c) (mm (x0 m c) (x3 m c))
/-- The hidden features: the first layer's output. -/
abbrev hidden : FVec Ideal S100000x64 .f32 := rowNormalize (table1 m c) (x4 m c)
/-- The second layer's aggregated table, mean and log-deviation side by side. -/
abbrev table2 : FVec Ideal S100000x64 .f32 := aggregate64 (x1 m c) (mm (hidden m c) (joinWeights (x5 m c) (x7 m c)))
/-- The drawn latent. -/
abbrev latent : FVec Ideal S100000x32 .f32 := zOf (table2 m c) (joinBiases (x6 m c) (x8 m c)) (x2 m c)

/-- A host stretch leaves a buffer it does not write as it found it: read the fold, then cite what the buffer held. -/
local macro "host_keeps " t:term : tactic => `(tactic| (after_results_simp; exact $t))

/-! ## After region 0: the first product -/

theorem b2_v29 : W2 m ρ c (Proc.devRef .tc main_v29) = mm (x0 m c) (x3 m c) := by
  refine (W2_arr m ρ c 2).trans ?_
  rw [Region0.arr (V1 m ρ) c]
  show mm (W1 m ρ c (Proc.devRef .tc main_arg0)) (W1 m ρ c (Proc.devRef .tc main_arg3)) = _
  rw [b1_arg0, b1_arg3]
theorem b2_v1 : W2 m ρ c (Proc.devRef .tc main_v1) = val_main_v1 (F := Ideal) (x1 m c) := (W2_of_ne m ρ c main_v1 (by decide)).trans (b1_v1 m ρ c)
theorem b2_v3 : W2 m ρ c (Proc.devRef .tc main_v3) = val_main_v3 (F := Ideal) (x1 m c) := (W2_of_ne m ρ c main_v3 (by decide)).trans (b1_v3 m ρ c)
theorem b2_v5 : W2 m ρ c (Proc.devRef .tc main_v5) = val_main_v5 (F := Ideal) (x1 m c) := (W2_of_ne m ρ c main_v5 (by decide)).trans (b1_v5 m ρ c)
theorem b2_v6 : W2 m ρ c (Proc.devRef .tc main_v6) = val_main_v6 (F := Ideal) (x1 m c) := (W2_of_ne m ρ c main_v6 (by decide)).trans (b1_v6 m ρ c)
theorem b2_v28 : W2 m ρ c (Proc.devRef .tc main_v28) = val_main_v28 (F := Ideal) (x1 m c) := (W2_of_ne m ρ c main_v28 (by decide)).trans (b1_v28 m ρ c)
theorem b2_arg2 : W2 m ρ c (Proc.devRef .tc main_arg2) = x2 m c := (W2_of_ne m ρ c main_arg2 (by decide)).trans (b1_arg2 m ρ c)
theorem b2_arg4 : W2 m ρ c (Proc.devRef .tc main_arg4) = x4 m c := (W2_of_ne m ρ c main_arg4 (by decide)).trans (b1_arg4 m ρ c)
theorem b2_arg5 : W2 m ρ c (Proc.devRef .tc main_arg5) = x5 m c := (W2_of_ne m ρ c main_arg5 (by decide)).trans (b1_arg5 m ρ c)
theorem b2_arg6 : W2 m ρ c (Proc.devRef .tc main_arg6) = x6 m c := (W2_of_ne m ρ c main_arg6 (by decide)).trans (b1_arg6 m ρ c)
theorem b2_arg7 : W2 m ρ c (Proc.devRef .tc main_arg7) = x7 m c := (W2_of_ne m ρ c main_arg7 (by decide)).trans (b1_arg7 m ρ c)
theorem b2_arg8 : W2 m ρ c (Proc.devRef .tc main_arg8) = x8 m c := (W2_of_ne m ρ c main_arg8 (by decide)).trans (b1_arg8 m ρ c)

/-! ## After the second host stretch: the first aggregation pass -/

theorem b3_v42 : W3 m ρ c (Proc.devRef .tc main_v42) = table1 m c := by
  show StableHlo.after hostOps1 (W2 m ρ c) (Proc.devRef .tc main_v42) = _
  after_results_simp
  rw [b2_v5, b2_v6, b2_v28, b2_v29]
  rfl
theorem b3_v1 : W3 m ρ c (Proc.devRef .tc main_v1) = val_main_v1 (F := Ideal) (x1 m c) := by
  show StableHlo.after hostOps1 (W2 m ρ c) (Proc.devRef .tc main_v1) = _; host_keeps (b2_v1 m ρ c)
theorem b3_v3 : W3 m ρ c (Proc.devRef .tc main_v3) = val_main_v3 (F := Ideal) (x1 m c) := by
  show StableHlo.after hostOps1 (W2 m ρ c) (Proc.devRef .tc main_v3) = _; host_keeps (b2_v3 m ρ c)
theorem b3_v5 : W3 m ρ c (Proc.devRef .tc main_v5) = val_main_v5 (F := Ideal) (x1 m c) := by
  show StableHlo.after hostOps1 (W2 m ρ c) (Proc.devRef .tc main_v5) = _; host_keeps (b2_v5 m ρ c)
theorem b3_v6 : W3 m ρ c (Proc.devRef .tc main_v6) = val_main_v6 (F := Ideal) (x1 m c) := by
  show StableHlo.after hostOps1 (W2 m ρ c) (Proc.devRef .tc main_v6) = _; host_keeps (b2_v6 m ρ c)
theorem b3_v28 : W3 m ρ c (Proc.devRef .tc main_v28) = val_main_v28 (F := Ideal) (x1 m c) := by
  show StableHlo.after hostOps1 (W2 m ρ c) (Proc.devRef .tc main_v28) = _; host_keeps (b2_v28 m ρ c)
theorem b3_arg2 : W3 m ρ c (Proc.devRef .tc main_arg2) = x2 m c := by
  show StableHlo.after hostOps1 (W2 m ρ c) (Proc.devRef .tc main_arg2) = _; host_keeps (b2_arg2 m ρ c)
theorem b3_arg4 : W3 m ρ c (Proc.devRef .tc main_arg4) = x4 m c := by
  show StableHlo.after hostOps1 (W2 m ρ c) (Proc.devRef .tc main_arg4) = _; host_keeps (b2_arg4 m ρ c)
theorem b3_arg5 : W3 m ρ c (Proc.devRef .tc main_arg5) = x5 m c := by
  show StableHlo.after hostOps1 (W2 m ρ c) (Proc.devRef .tc main_arg5) = _; host_keeps (b2_arg5 m ρ c)
theorem b3_arg6 : W3 m ρ c (Proc.devRef .tc main_arg6) = x6 m c := by
  show StableHlo.after hostOps1 (W2 m ρ c) (Proc.devRef .tc main_arg6) = _; host_keeps (b2_arg6 m ρ c)
theorem b3_arg7 : W3 m ρ c (Proc.devRef .tc main_arg7) = x7 m c := by
  show StableHlo.after hostOps1 (W2 m ρ c) (Proc.devRef .tc main_arg7) = _; host_keeps (b2_arg7 m ρ c)
theorem b3_arg8 : W3 m ρ c (Proc.devRef .tc main_arg8) = x8 m c := by
  show StableHlo.after hostOps1 (W2 m ρ c) (Proc.devRef .tc main_arg8) = _; host_keeps (b2_arg8 m ρ c)

/-! ## After region 1: the hidden features -/

theorem b4_v43 : W4 m ρ c (Proc.devRef .tc main_v43) = hidden m c := by
  refine (W4_arr m ρ c 2).trans ?_
  rw [Region1.arr (V3 m ρ) c]
  show rowNormalize (W3 m ρ c (Proc.devRef .tc main_v42)) (W3 m ρ c (Proc.devRef .tc main_arg4)) = _
  rw [b3_v42, b3_arg4]
theorem b4_v1 : W4 m ρ c (Proc.devRef .tc main_v1) = val_main_v1 (F := Ideal) (x1 m c) := (W4_of_ne m ρ c main_v1 (by decide)).trans (b3_v1 m ρ c)
theorem b4_v3 : W4 m ρ c (Proc.devRef .tc main_v3) = val_main_v3 (F := Ideal) (x1 m c) := (W4_of_ne m ρ c main_v3 (by decide)).trans (b3_v3 m ρ c)
theorem b4_v5 : W4 m ρ c (Proc.devRef .tc main_v5) = val_main_v5 (F := Ideal) (x1 m c) := (W4_of_ne m ρ c main_v5 (by decide)).trans (b3_v5 m ρ c)
theorem b4_v6 : W4 m ρ c (Proc.devRef .tc main_v6) = val_main_v6 (F := Ideal) (x1 m c) := (W4_of_ne m ρ c main_v6 (by decide)).trans (b3_v6 m ρ c)
theorem b4_v28 : W4 m ρ c (Proc.devRef .tc main_v28) = val_main_v28 (F := Ideal) (x1 m c) := (W4_of_ne m ρ c main_v28 (by decide)).trans (b3_v28 m ρ c)
theorem b4_arg2 : W4 m ρ c (Proc.devRef .tc main_arg2) = x2 m c := (W4_of_ne m ρ c main_arg2 (by decide)).trans (b3_arg2 m ρ c)
theorem b4_arg5 : W4 m ρ c (Proc.devRef .tc main_arg5) = x5 m c := (W4_of_ne m ρ c main_arg5 (by decide)).trans (b3_arg5 m ρ c)
theorem b4_arg6 : W4 m ρ c (Proc.devRef .tc main_arg6) = x6 m c := (W4_of_ne m ρ c main_arg6 (by decide)).trans (b3_arg6 m ρ c)
theorem b4_arg7 : W4 m ρ c (Proc.devRef .tc main_arg7) = x7 m c := (W4_of_ne m ρ c main_arg7 (by decide)).trans (b3_arg7 m ρ c)
theorem b4_arg8 : W4 m ρ c (Proc.devRef .tc main_arg8) = x8 m c := (W4_of_ne m ρ c main_arg8 (by decide)).trans (b3_arg8 m ρ c)

/-! ## After the third host stretch: the joined weights and biases -/

theorem b5_v44 : W5 m ρ c (Proc.devRef .tc main_v44) = joinWeights (x5 m c) (x7 m c) := by
  show StableHlo.after hostOps2 (W4 m ρ c) (Proc.devRef .tc main_v44) = _
  after_results
  rw [b4_arg5, b4_arg7]
  rfl
theorem b5_v45 : W5 m ρ c (Proc.devRef .tc main_v45) = joinBiases (x6 m c) (x8 m c) := by
  show StableHlo.after hostOps2 (W4 m ρ c) (Proc.devRef .tc main_v45) = _
  after_results
  rw [b4_arg6, b4_arg8]
  rfl
theorem b5_v43 : W5 m ρ c (Proc.devRef .tc main_v43) = hidden m c := by
  show StableHlo.after hostOps2 (W4 m ρ c) (Proc.devRef .tc main_v43) = _; host_keeps (b4_v43 m ρ c)
theorem b5_v1 : W5 m ρ c (Proc.devRef .tc main_v1) = val_main_v1 (F := Ideal) (x1 m c) := by
  show StableHlo.after hostOps2 (W4 m ρ c) (Proc.devRef .tc main_v1) = _; host_keeps (b4_v1 m ρ c)
theorem b5_v3 : W5 m ρ c (Proc.devRef .tc main_v3) = val_main_v3 (F := Ideal) (x1 m c) := by
  show StableHlo.after hostOps2 (W4 m ρ c) (Proc.devRef .tc main_v3) = _; host_keeps (b4_v3 m ρ c)
theorem b5_v5 : W5 m ρ c (Proc.devRef .tc main_v5) = val_main_v5 (F := Ideal) (x1 m c) := by
  show StableHlo.after hostOps2 (W4 m ρ c) (Proc.devRef .tc main_v5) = _; host_keeps (b4_v5 m ρ c)
theorem b5_v6 : W5 m ρ c (Proc.devRef .tc main_v6) = val_main_v6 (F := Ideal) (x1 m c) := by
  show StableHlo.after hostOps2 (W4 m ρ c) (Proc.devRef .tc main_v6) = _; host_keeps (b4_v6 m ρ c)
theorem b5_v28 : W5 m ρ c (Proc.devRef .tc main_v28) = val_main_v28 (F := Ideal) (x1 m c) := by
  show StableHlo.after hostOps2 (W4 m ρ c) (Proc.devRef .tc main_v28) = _; host_keeps (b4_v28 m ρ c)
theorem b5_arg2 : W5 m ρ c (Proc.devRef .tc main_arg2) = x2 m c := by
  show StableHlo.after hostOps2 (W4 m ρ c) (Proc.devRef .tc main_arg2) = _; host_keeps (b4_arg2 m ρ c)

/-! ## After region 2: the second product -/

theorem b6_v46 : W6 m ρ c (Proc.devRef .tc main_v46) = mm (hidden m c) (joinWeights (x5 m c) (x7 m c)) := by
  refine (W6_arr m ρ c 2).trans ?_
  rw [Region2.arr (V5 m ρ) c]
  show mm (W5 m ρ c (Proc.devRef .tc main_v43)) (W5 m ρ c (Proc.devRef .tc main_v44)) = _
  rw [b5_v43, b5_v44]
theorem b6_v1 : W6 m ρ c (Proc.devRef .tc main_v1) = val_main_v1 (F := Ideal) (x1 m c) := (W6_of_ne m ρ c main_v1 (by decide)).trans (b5_v1 m ρ c)
theorem b6_v3 : W6 m ρ c (Proc.devRef .tc main_v3) = val_main_v3 (F := Ideal) (x1 m c) := (W6_of_ne m ρ c main_v3 (by decide)).trans (b5_v3 m ρ c)
theorem b6_v5 : W6 m ρ c (Proc.devRef .tc main_v5) = val_main_v5 (F := Ideal) (x1 m c) := (W6_of_ne m ρ c main_v5 (by decide)).trans (b5_v5 m ρ c)
theorem b6_v6 : W6 m ρ c (Proc.devRef .tc main_v6) = val_main_v6 (F := Ideal) (x1 m c) := (W6_of_ne m ρ c main_v6 (by decide)).trans (b5_v6 m ρ c)
theorem b6_v28 : W6 m ρ c (Proc.devRef .tc main_v28) = val_main_v28 (F := Ideal) (x1 m c) := (W6_of_ne m ρ c main_v28 (by decide)).trans (b5_v28 m ρ c)
theorem b6_v45 : W6 m ρ c (Proc.devRef .tc main_v45) = joinBiases (x6 m c) (x8 m c) := (W6_of_ne m ρ c main_v45 (by decide)).trans (b5_v45 m ρ c)
theorem b6_arg2 : W6 m ρ c (Proc.devRef .tc main_arg2) = x2 m c := (W6_of_ne m ρ c main_arg2 (by decide)).trans (b5_arg2 m ρ c)

/-! ## After the fourth host stretch: the second aggregation pass -/

theorem b7_v59 : W7 m ρ c (Proc.devRef .tc main_v59) = table2 m c := by
  show StableHlo.after hostOps3 (W6 m ρ c) (Proc.devRef .tc main_v59) = _
  after_results_simp
  rw [b6_v5, b6_v6, b6_v28, b6_v46]
  rfl
theorem b7_v1 : W7 m ρ c (Proc.devRef .tc main_v1) = val_main_v1 (F := Ideal) (x1 m c) := by
  show StableHlo.after hostOps3 (W6 m ρ c) (Proc.devRef .tc main_v1) = _; host_keeps (b6_v1 m ρ c)
theorem b7_v3 : W7 m ρ c (Proc.devRef .tc main_v3) = val_main_v3 (F := Ideal) (x1 m c) := by
  show StableHlo.after hostOps3 (W6 m ρ c) (Proc.devRef .tc main_v3) = _; host_keeps (b6_v3 m ρ c)
theorem b7_v45 : W7 m ρ c (Proc.devRef .tc main_v45) = joinBiases (x6 m c) (x8 m c) := by
  show StableHlo.after hostOps3 (W6 m ρ c) (Proc.devRef .tc main_v45) = _; host_keeps (b6_v45 m ρ c)
theorem b7_arg2 : W7 m ρ c (Proc.devRef .tc main_arg2) = x2 m c := by
  show StableHlo.after hostOps3 (W6 m ρ c) (Proc.devRef .tc main_arg2) = _; host_keeps (b6_arg2 m ρ c)

/-! ## After region 3: mean, log-deviation, latent -/

theorem b8_mean : W8 m ρ c (Proc.devRef .tc main_v60_0) = muOf (table2 m c) (joinBiases (x6 m c) (x8 m c)) := by
  refine (W8_arr m ρ c 3).trans ?_
  rw [Region3.arr_mu (V7 m ρ) c]
  show muOf (W7 m ρ c (Proc.devRef .tc main_v59)) (W7 m ρ c (Proc.devRef .tc main_v45)) = _
  rw [b7_v59, b7_v45]
theorem b8_logdev : W8 m ρ c (Proc.devRef .tc main_v60_1) = lsOf (table2 m c) (joinBiases (x6 m c) (x8 m c)) := by
  refine (W8_arr m ρ c 4).trans ?_
  rw [Region3.arr_ls (V7 m ρ) c]
  show lsOf (W7 m ρ c (Proc.devRef .tc main_v59)) (W7 m ρ c (Proc.devRef .tc main_v45)) = _
  rw [b7_v59, b7_v45]
theorem b8_latent : W8 m ρ c (Proc.devRef .tc main_v60_2) = latent m c := by
  refine (W8_arr m ρ c 5).trans ?_
  rw [Region3.arr_z (V7 m ρ) c]
  show zOf (W7 m ρ c (Proc.devRef .tc main_v59)) (W7 m ρ c (Proc.devRef .tc main_v45)) (W7 m ρ c (Proc.devRef .tc main_arg2)) = _
  rw [b7_v59, b7_v45, b7_arg2]
theorem b8_v1 : W8 m ρ c (Proc.devRef .tc main_v1) = val_main_v1 (F := Ideal) (x1 m c) := (W8_of_ne m ρ c main_v1 (by decide)).trans (b7_v1 m ρ c)
theorem b8_v3 : W8 m ρ c (Proc.devRef .tc main_v3) = val_main_v3 (F := Ideal) (x1 m c) := (W8_of_ne m ρ c main_v3 (by decide)).trans (b7_v3 m ρ c)

/-! ## The latent's rows at the padded endpoints

The stretches between region 3 and region 4 (the two padding calls and the gathers) read as one fold from the contents
region 3 leaves. -/

theorem b13_v69 : W13 m ρ c (Proc.devRef .tc main_v69) = gatherPadded (latent m c) (val_main_v1 (F := Ideal) (x1 m c)) := by
  show StableHlo.after hostOps4_4 (W12 m ρ c) (Proc.devRef .tc main_v69) = _
  after_results_simp
  rw [b8_v1, b8_latent]
  rfl
theorem b13_v76 : W13 m ρ c (Proc.devRef .tc main_v76) = gatherPadded (latent m c) (val_main_v3 (F := Ideal) (x1 m c)) := by
  show StableHlo.after hostOps4_4 (W12 m ρ c) (Proc.devRef .tc main_v76) = _
  after_results_simp
  rw [b8_v3, b8_latent]
  rfl
theorem b13_mean : W13 m ρ c (Proc.devRef .tc main_v60_0) = muOf (table2 m c) (joinBiases (x6 m c) (x8 m c)) := by
  show StableHlo.after hostOps4_4 (W12 m ρ c) (Proc.devRef .tc main_v60_0) = _; host_keeps (b8_mean m ρ c)
theorem b13_logdev : W13 m ρ c (Proc.devRef .tc main_v60_1) = lsOf (table2 m c) (joinBiases (x6 m c) (x8 m c)) := by
  show StableHlo.after hostOps4_4 (W12 m ρ c) (Proc.devRef .tc main_v60_1) = _; host_keeps (b8_logdev m ρ c)

/-! ## After region 4 and the last host stretch: the results -/

theorem b14_v77 : W14 m ρ c (Proc.devRef .tc main_v77)
    = edgeScore (gatherPadded (latent m c) (val_main_v1 (F := Ideal) (x1 m c))) (gatherPadded (latent m c) (val_main_v3 (F := Ideal) (x1 m c))) := by
  refine (W14_arr m ρ c 2).trans ?_
  rw [Region4.arr (V13 m ρ) c]
  show edgeScore (W13 m ρ c (Proc.devRef .tc main_v69)) (W13 m ρ c (Proc.devRef .tc main_v76)) = _
  rw [b13_v69, b13_v76]
theorem b14_mean : W14 m ρ c (Proc.devRef .tc main_v60_0) = muOf (table2 m c) (joinBiases (x6 m c) (x8 m c)) := (W14_of_ne m ρ c main_v60_0 (by decide)).trans (b13_mean m ρ c)
theorem b14_logdev : W14 m ρ c (Proc.devRef .tc main_v60_1) = lsOf (table2 m c) (joinBiases (x6 m c) (x8 m c)) := (W14_of_ne m ρ c main_v60_1 (by decide)).trans (b13_logdev m ρ c)

/-- THE SCORES the program returns: the first 1600000 scores of the padded edges. -/
theorem result_scores : W15 m ρ c (Proc.devRef .tc main_v78)
    = keepEdges (edgeScore (gatherPadded (latent m c) (val_main_v1 (F := Ideal) (x1 m c))) (gatherPadded (latent m c) (val_main_v3 (F := Ideal) (x1 m c)))) := by
  show StableHlo.after hostOps5 (W14 m ρ c) (Proc.devRef .tc main_v78) = _
  after_results_simp
  rw [b14_v77]
  rfl
/-- THE MEAN the program returns. -/
theorem result_mean : W15 m ρ c (Proc.devRef .tc main_v60_0) = muOf (table2 m c) (joinBiases (x6 m c) (x8 m c)) := by
  show StableHlo.after hostOps5 (W14 m ρ c) (Proc.devRef .tc main_v60_0) = _; host_keeps (b14_mean m ρ c)
/-- THE LOG-DEVIATION the program returns. -/
theorem result_logdev : W15 m ρ c (Proc.devRef .tc main_v60_1) = lsOf (table2 m c) (joinBiases (x6 m c) (x8 m c)) := by
  show StableHlo.after hostOps5 (W14 m ρ c) (Proc.devRef .tc main_v60_1) = _; host_keeps (b14_logdev m ρ c)

end Cert.KernelIdeal.Chain

end
-- ==== Proof.BridgeLayer1.lean ====
/-
  The first graph-convolution layer of the reference, stage by stage, is the specification's: the host's matrix product is
  the sum over the contracted axis; its aggregation pass is the one both programs run; its epilogue (bias, clamp at
  zero, division of each row by the larger of its norm and the floor) is the row normalization.
-/
import proofs.«408827_j68427418960020_4_alg».proof.Proof.Gen.ReferenceIdeal.Read
import proofs.«408827_j68427418960020_4_alg».proof.Proof.Spec
import proofs.«408827_j68427418960020_4_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Layer1

open Idealize.ShloMosaic Idealize.ShloMosaic.TcCoe Idealize.ShloMosaic.ValueIdx
open Cert.ReferenceIdeal Cert.ReferenceIdeal.Read Cert.Spec Cert.KernelIdeal.Ops

variable (x0 : FVec Ideal S100000x128 .f32) (x1 : IVec S2x1600000 32) (x2 : FVec Ideal S100000x32 .f32)
  (x3 : FVec Ideal S128x64 .f32) (x4 : FVec Ideal S64 .f32) (x5 : FVec Ideal S64x32 .f32) (x6 : FVec Ideal S32 .f32)
  (x7 : FVec Ideal S64x32 .f32) (x8 : FVec Ideal S32 .f32)

/-- The host's product of the features and the first weights is the matrix product. -/
theorem product : mm x0 x3 = val_main_v29 (F := Ideal) x0 x3 := by
  funext i
  rw [val_main_v29_apply]
  unfold mm
  refine Finset.sum_congr rfl fun k _ => ?_
  have el : (ix2 (rowOf i) k : S100000x128.Idx) = lidx_main_v29 i k :=
    funext fun a => by match a with | ⟨0, _⟩ => rfl | ⟨1, _⟩ => rfl
  have er : (ix2 k (colOf i) : S128x64.Idx) = ridx_main_v29 i k :=
    funext fun a => by match a with | ⟨0, _⟩ => rfl | ⟨1, _⟩ => rfl
  rw [el, er]

/-- One aggregation pass over the first product is the reference's aggregated table. -/
theorem aggregate : aggregate64 x1 (val_main_v29 (F := Ideal) x0 x3) = val_main_v42 (F := Ideal) x0 x1 x3 := by
  unfold aggregate64 val_main_v42 val_main_v39 val_main_v36
  rfl

/-- Entry (r, j) of the reference's rectified table: the aggregated entry plus the bias's entry j, clamped below at
    zero. -/
theorem rectified_entry (m : S100000x64.Idx) :
    val_main_v46 (F := Ideal) x0 x1 x3 x4 m
      = biasRelu (val_main_v42 (F := Ideal) x0 x1 x3) x4 (rowOf m) (colOf m) := by
  rw [val_main_v46_apply, val_main_v45_apply, val_main_v44_apply, val_main_v43_apply, val_main_call0_v0_apply,
    val_main_call0_cst_apply]
  have e1 : (ix2 (rowOf m) (colOf m) : S100000x64.Idx) = m :=
    funext fun a => by match a with | ⟨0, _⟩ => rfl | ⟨1, _⟩ => rfl
  have e2 : idx_main_v43 (idx_main_v44 m) = (ix1 (colOf m) : S64.Idx) :=
    funext fun a => by match a with | ⟨0, _⟩ => rfl
  unfold biasRelu
  rw [e1, e2]
  rfl

/-- A square of the rectified table at row r, column k, as the reference's row sum reads it. -/
theorem square_entry (r : S100000.Idx) (k : Fin 64) :
    val_main_call1_v0 (F := Ideal) x0 x1 x3 x4 (idx_main_call1_v1 r k)
      = biasRelu (val_main_v42 (F := Ideal) x0 x1 x3) x4 (posOf r) k
        * biasRelu (val_main_v42 (F := Ideal) x0 x1 x3) x4 (posOf r) k := by
  rw [val_main_call1_v0_apply, rectified_entry]
  have hr : rowOf (idx_main_call1_v1 r k) = posOf r := rfl
  have hc : colOf (idx_main_call1_v1 r k) = k := rfl
  rw [hr, hc]
  rfl

/-- The reference's row sum of squares: it starts from the zero word, which is the number zero. -/
theorem row_squares (r : S100000.Idx) :
    val_main_call1_v1 (F := Ideal) x0 x1 x3 x4 r
      = ∑ j : Fin 64, biasRelu (val_main_v42 (F := Ideal) x0 x1 x3) x4 (posOf r) j
          * biasRelu (val_main_v42 (F := Ideal) x0 x1 x3) x4 (posOf r) j := by
  rw [val_main_call1_v1_apply, val_main_call1_cst_apply]
  show Ideal.ofBits .f32 0x00000000#32 + _ = _
  rw [Ideal.ofBits_zero_f32, zero_add]
  exact Finset.sum_congr rfl fun k _ => square_entry x0 x1 x3 x4 r k

/-- The reference's bias, rectification and row normalization of the aggregated table. -/
theorem epilogue : rowNormalize (val_main_v42 (F := Ideal) x0 x1 x3) x4 = val_main_v51 (F := Ideal) x0 x1 x3 x4 := by
  funext i
  rw [val_main_v51_apply, val_main_v50_apply, val_main_v49_apply, val_main_v48_apply, val_main_cst_8_apply,
    val_main_v47_apply, val_main_call1_v2_apply, row_squares, rectified_entry]
  have hp : posOf (idx_main_call1_v2 (idx_main_v50 i)) = rowOf i := rfl
  rw [hp]
  unfold rowNormalize
  rw [Ideal.hostDivf_def, Ideal.maximumf_def, Ideal.hostUnary_sqrt_def, Ideal.ofBits_def]

end Cert.Bridge.Layer1

end
-- ==== Proof.BridgeLayer2.lean ====
/-
  The second layer: the hidden features times the two weight matrices joined side by side is the two products side by
  side; with the two aggregated tables side by side and the two biases end to end, the left half plus its bias is the
  reference's mean, the right half plus its bias its log-deviation, and the drawn latent is the reference's.
-/
import proofs.«408827_j68427418960020_4_alg».proof.Proof.Gen.ReferenceIdeal.Read
import proofs.«408827_j68427418960020_4_alg».proof.Proof.Spec
import proofs.«408827_j68427418960020_4_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Layer2

open Idealize.ShloMosaic Idealize.ShloMosaic.TcCoe Idealize.ShloMosaic.ValueIdx
open Cert.ReferenceIdeal Cert.ReferenceIdeal.Read Cert.Spec Cert.KernelIdeal.Ops

variable (x0 : FVec Ideal S100000x128 .f32) (x1 : IVec S2x1600000 32) (x2 : FVec Ideal S100000x32 .f32)
  (x3 : FVec Ideal S128x64 .f32) (x4 : FVec Ideal S64 .f32) (x5 : FVec Ideal S64x32 .f32) (x6 : FVec Ideal S32 .f32)
  (x7 : FVec Ideal S64x32 .f32) (x8 : FVec Ideal S32 .f32)

/-! ## Two matrices side by side, read at an index -/

/-- Side by side at a column below 32: the left matrix at the same row and column. -/
theorem sideBySide_left {M : Nat} (p q : Mat M 32) (j : (⟨2, ![M, 64]⟩ : Shape).Idx) (i : (⟨2, ![M, 32]⟩ : Shape).Idx)
    (h0 : (i 0).val = (j 0).val) (h1 : (i 1).val = (j 1).val) : sideBySide p q j = p i := by
  have hlt : (j 1).val < 32 := by have h2 : (i 1).val < 32 := (i 1).isLt; omega
  unfold sideBySide
  rw [dif_pos hlt]
  refine congrArg p (funext fun a => ?_)
  match a with
  | ⟨0, _⟩ => exact Fin.ext h0.symm
  | ⟨1, _⟩ => exact Fin.ext h1.symm

/-- Side by side at a column from 32 on: the right matrix at the same row, the column 32 less. -/
theorem sideBySide_right {M : Nat} (p q : Mat M 32) (j : (⟨2, ![M, 64]⟩ : Shape).Idx) (i : (⟨2, ![M, 32]⟩ : Shape).Idx)
    (h0 : (i 0).val = (j 0).val) (h1 : (i 1).val + 32 = (j 1).val) : sideBySide p q j = q i := by
  have hge : ¬ (j 1).val < 32 := by omega
  unfold sideBySide
  rw [dif_neg hge]
  refine congrArg q (funext fun a => ?_)
  match a with
  | ⟨0, _⟩ => exact Fin.ext h0.symm
  | ⟨1, _⟩ => exact Fin.ext (by show (j 1).val - 32 = (i 1).val; omega)

/-! ## The joined weights and the joined biases, read at an index -/

/-- The joined weights at a column below 32: the first matrix at the same row and column. -/
theorem joinWeights_left (j : (⟨2, ![64, 64]⟩ : Shape).Idx) (i : (⟨2, ![64, 32]⟩ : Shape).Idx)
    (h0 : (i 0).val = (j 0).val) (h1 : (i 1).val = (j 1).val) : joinWeights x5 x7 j = x5 i := by
  unfold joinWeights
  refine concatenate_pair_apply_left _ x5 x7 _ j rfl i fun b => ?_
  match b with
  | ⟨0, _⟩ => exact h0
  | ⟨1, _⟩ => exact h1

/-- The joined weights at a column from 32 on: the second matrix at the same row, the column 32 less. -/
theorem joinWeights_right (j : (⟨2, ![64, 64]⟩ : Shape).Idx) (i : (⟨2, ![64, 32]⟩ : Shape).Idx)
    (h0 : (i 0).val = (j 0).val) (h1 : (i 1).val + 32 = (j 1).val) : joinWeights x5 x7 j = x7 i := by
  unfold joinWeights
  refine concatenate_pair_apply_right _ x5 x7 _ j rfl rfl i (fun b hb => ?_) h1
  match b, hb with
  | ⟨0, _⟩, _ => exact h0
  | ⟨1, _⟩, hb => exact absurd rfl hb

/-- The joined biases at a position below 32: the first bias there. -/
theorem joinBiases_left (j : (⟨1, ![64]⟩ : Shape).Idx) (i : (⟨1, ![32]⟩ : Shape).Idx)
    (h0 : (i 0).val = (j 0).val) : joinBiases x6 x8 j = x6 i := by
  unfold joinBiases
  refine concatenate_pair_apply_left _ x6 x8 _ j rfl i fun b => ?_
  match b with
  | ⟨0, _⟩ => exact h0

/-- The joined biases at a position from 32 on: the second bias, the position 32 less. -/
theorem joinBiases_right (j : (⟨1, ![64]⟩ : Shape).Idx) (i : (⟨1, ![32]⟩ : Shape).Idx)
    (h0 : (i 0).val + 32 = (j 0).val) : joinBiases x6 x8 j = x8 i := by
  unfold joinBiases
  refine concatenate_pair_apply_right _ x6 x8 _ j rfl rfl i (fun b hb => ?_) h0
  match b, hb with
  | ⟨0, _⟩, hb => exact absurd rfl hb

/-! ## The four joins -/

/-- The product with the joined weights is the two products side by side. -/
theorem product :
    mm (val_main_v51 (F := Ideal) x0 x1 x3 x4) (joinWeights x5 x7)
      = sideBySide (val_main_v52 (F := Ideal) x0 x1 x3 x4 x5) (val_main_v69 (F := Ideal) x0 x1 x3 x4 x7) := by
  funext i
  unfold sideBySide
  split
  · next h =>
    rw [val_main_v52_apply]
    unfold mm
    refine Finset.sum_congr rfl fun k _ => ?_
    have el : ix2 (rowOf i) k = lidx_main_v52 (ix2 (rowOf i) ⟨(i 1).val, h⟩) k := funext fun a => by
      match a with
      | ⟨0, _⟩ => rfl
      | ⟨1, _⟩ => rfl
    have er : joinWeights x5 x7 (ix2 k (colOf i)) = x5 (ridx_main_v52 (ix2 (rowOf i) ⟨(i 1).val, h⟩) k) :=
      joinWeights_left x5 x7 _ _ rfl rfl
    rw [el, er]
  · next h =>
    rw [val_main_v69_apply]
    unfold mm
    refine Finset.sum_congr rfl fun k _ => ?_
    have hc : (i 1).val - 32 < 32 := by have h2 : (i 1).val < 64 := (i 1).isLt; omega
    have el : ix2 (rowOf i) k = lidx_main_v69 (ix2 (rowOf i) ⟨(i 1).val - 32, hc⟩) k := funext fun a => by
      match a with
      | ⟨0, _⟩ => rfl
      | ⟨1, _⟩ => rfl
    have er : joinWeights x5 x7 (ix2 k (colOf i)) = x7 (ridx_main_v69 (ix2 (rowOf i) ⟨(i 1).val - 32, hc⟩) k) :=
      joinWeights_right x5 x7 _ _ rfl (by show (i 1).val - 32 + 32 = (i 1).val; omega)
    rw [el, er]

/-- The left half plus the left bias is the reference's mean. -/
theorem mean :
    muOf (sideBySide (val_main_v65 (F := Ideal) x0 x1 x3 x4 x5) (val_main_v82 (F := Ideal) x0 x1 x3 x4 x7)) (joinBiases x6 x8)
      = val_main_v68 (F := Ideal) x0 x1 x3 x4 x5 x6 := by
  funext i
  rw [val_main_v68_apply, val_main_v67_apply, val_main_v66_apply]
  unfold muOf
  rw [sideBySide_left _ _ _ i rfl rfl, joinBiases_left x6 x8 _ (idx_main_v66 (idx_main_v67 i)) rfl]
  rfl

/-- The right half plus the right bias is the reference's log-deviation. -/
theorem logDeviation :
    lsOf (sideBySide (val_main_v65 (F := Ideal) x0 x1 x3 x4 x5) (val_main_v82 (F := Ideal) x0 x1 x3 x4 x7)) (joinBiases x6 x8)
      = val_main_v85 (F := Ideal) x0 x1 x3 x4 x7 x8 := by
  funext i
  rw [val_main_v85_apply, val_main_v84_apply, val_main_v83_apply]
  unfold lsOf
  rw [sideBySide_right _ _ _ i rfl rfl, joinBiases_right x6 x8 _ (idx_main_v83 (idx_main_v84 i)) rfl]
  rfl

/-- The drawn latent is the reference's. -/
theorem latent :
    zOf (sideBySide (val_main_v65 (F := Ideal) x0 x1 x3 x4 x5) (val_main_v82 (F := Ideal) x0 x1 x3 x4 x7)) (joinBiases x6 x8) x2
      = val_main_v89 (F := Ideal) x0 x1 x2 x3 x4 x5 x6 x7 x8 := by
  funext i
  rw [val_main_v89_apply, val_main_v88_apply, val_main_v87_apply, val_main_v86_apply, val_main_call2_v4_apply,
    val_main_call2_v3_apply, val_main_cst_16_apply, val_main_call2_v2_apply, val_main_call2_v1_apply,
    val_main_call2_v0_apply, val_main_cst_15_apply]
  unfold zOf clamp10
  rw [mean x0 x1 x3 x4 x5 x6 x7 x8, logDeviation x0 x1 x3 x4 x5 x6 x7 x8]
  simp only [Ideal.addf_def, Ideal.mulf_def, Ideal.maximumf_def, Ideal.minimumf_def, Ideal.hostUnary_exp_def,
    Ideal.ofBits_def]

end Cert.Bridge.Layer2

end
-- ==== Proof.LibRows.lean ====
/-
  Rows of a table taken by a list of index words, and rows added into a table at a list of index words, read at one entry.

  Taking rows (what `x[idx]` of a matrix lowers to): row `e` of the result is the table's row at the word `idx[e]` read as a
  signed integer and clamped into the table (a gather clamps every start index).  Adding rows (what a segment sum lowers
  to, at the exact instance): entry (i, j) of the result is the operand's entry plus the sum, over the update rows `e` whose
  word `idx[e]`, read signed and NOT clamped, is exactly `i`, of the update's entry (e, j); an update row whose word
  points outside the table is dropped.  Both facts hold for any numbers of table rows, columns and index words.
-/
import Idealize.ShloMosaic.PureOps.Ideal
import Idealize.ShloMosaic.Lib.ValueIdx

noncomputable section

open scoped BigOperators

namespace Cert.LibRows

open Idealize.ShloMosaic Idealize.ShloMosaic.ValueIdx

/-- The dimension numbers of "take rows": a table `[N, C]`, index words `[E, 1]`, result `[E, C]`. -/
abbrev gatherRows (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of "add rows": a table `[N, C]`, index words `[E, 1]`, update rows `[E, C]`. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The table row a word selects when rows are taken: the word read signed, clamped into `[0, N - 1]`. -/
abbrev rowAt (N : Nat) (hN : 0 < N) {w : Nat} (x : BitVec w) : Fin N := ⟨min x.toInt.toNat (N - 1), by omega⟩

/-- On a two-axis table the second axis is not the first. -/
theorem fin2_one_ne_zero : (1 : Fin 2) ≠ 0 := by decide

/-- TAKING ROWS, read at (e, j): the table at the row the word `idx[e]` selects, column `j`. -/
theorem gatherRows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gatherRows N C E wf) x idx (ix2 e j) = x (ix2 (rowAt N hN (idx (ix2 e (0 : Fin 1)))) j) := by
  unfold Host.gather
  congr 1
  funext a
  refine Fin.ext ?_
  match a with
  | ⟨0, _⟩ =>
    show (gatherRows N C E wf).start (ix2 e j) idx 0 + (gatherRows N C E wf).batchCoord (ix2 e j) 0
      + (gatherRows N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e j) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e j) idx 1 + (gatherRows N C E wf).batchCoord (ix2 e j) 1
      + (gatherRows N C E wf).offCoord (ix2 e j) 1 = _
    rw [GatherDims.batchCoord_eq_zero _ _ _ List.not_mem_nil]
    have hst : (gatherRows N C E wf).start (ix2 e j) idx 1 = 0 := by
      unfold GatherDims.start
      rw [dif_neg (show (1 : Fin 2) ∉ (gatherRows N C E wf).startIndexMap from fun h => absurd (List.mem_singleton.mp h) fin2_one_ne_zero)]
    rw [hst]
    simp only [Nat.add_zero, Nat.zero_add]
    unfold GatherDims.offCoord
    rw [dif_pos (show (1 : Fin 2) ∈ (gatherRows N C E wf).sKept from (GatherDims.mem_sKept _ _).mpr ⟨fun h => absurd (List.mem_singleton.mp h) fin2_one_ne_zero, List.not_mem_nil⟩)]
    rfl

section ScatterRows
variable {N C E w : Nat} (wf : ScatterDims.WF ⟨2, ![N, C]⟩ ⟨2, ![E, 1]⟩ ⟨2, ![E, C]⟩ [1] [0] [0] 1)

/-- On the row axis the window of update (e, j') starts at the word `idx[e]` read as a signed integer. -/
theorem scatterRows_start0 (idx : IVec ⟨2, ![E, 1]⟩ w) (e : Fin E) (j' : Fin C) :
    (scatterRows N C E wf).start (ix2 e j') idx 0 = (idx (ix2 e (0 : Fin 1))).toInt := by
  unfold ScatterDims.start
  rw [dif_pos (show (0 : Fin 2) ∈ (scatterRows N C E wf).scatterDimsToOperandDims from List.mem_singleton.mpr rfl)]
  have hsi : (scatterRows N C E wf).siIdx (ix2 e j') ⟨List.idxOf (0 : Fin 2) (scatterRows N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem scatterRows_start1 (idx : IVec ⟨2, ![E, 1]⟩ w) (e : Fin E) (j' : Fin C) :
    (scatterRows N C E wf).start (ix2 e j') idx 1 = 0 := by
  unfold ScatterDims.start
  rw [dif_neg (show (1 : Fin 2) ∉ (scatterRows N C E wf).scatterDimsToOperandDims from
    fun h => absurd (List.mem_singleton.mp h) fin2_one_ne_zero)]

/-- The row axis is inserted: the window coordinate there is 0. -/
theorem scatterRows_window0 (e : Fin E) (j' : Fin C) :
    (scatterRows N C E wf).window (ix2 e j') 0 = 0 := by
  unfold ScatterDims.window
  rw [dif_neg (show (0 : Fin 2) ∉ (scatterRows N C E wf).sKept from
    fun h => (of_decide_eq_true (List.mem_filter.mp h).2) (List.mem_singleton.mpr rfl))]

/-- On the column axis the window coordinate of update (e, j') is its column j'. -/
theorem scatterRows_window1 (e : Fin E) (j' : Fin C) :
    (scatterRows N C E wf).window (ix2 e j') 1 = j'.val := by
  unfold ScatterDims.window
  rw [dif_pos (show (1 : Fin 2) ∈ (scatterRows N C E wf).sKept from
    List.mem_filter.mpr ⟨List.mem_finRange _, decide_eq_true (fun h => absurd (List.mem_singleton.mp h) fin2_one_ne_zero)⟩)]
  rfl

/-- Update (e, j') lands on entry (i, j) exactly when the word `idx[e]`, read signed, is `i` and `j' = j`: the landing
    place is (word + 0, 0 + j'), inside the table when 0 ≤ word < N (j' < C always holds). -/
theorem scatterRows_resultIdx (idx : IVec ⟨2, ![E, 1]⟩ w) (e : Fin E) (j' : Fin C) (i : Fin N) (j : Fin C) :
    (scatterRows N C E wf).resultIdx? (ix2 e j') idx = some (ix2 i j)
      ↔ (idx (ix2 e (0 : Fin 1))).toInt = (i.val : Int) ∧ j' = j := by
  have h0 := scatterRows_start0 wf idx e j'
  have h1 := scatterRows_start1 wf idx e j'
  have w0 := scatterRows_window0 wf e j'
  have w1 := scatterRows_window1 wf e j'
  unfold ScatterDims.resultIdx?
  constructor
  · intro h
    split at h
    · rename_i hc
      have hf := Option.some.inj h
      have e0 := congrArg (fun f => (f (0 : Fin 2)).val) hf
      have e1 := congrArg (fun f => (f (1 : Fin 2)).val) hf
      simp only at e0 e1
      have c0 := hc 0
      rw [h0, w0] at e0 c0
      rw [h1, w1] at e1
      have e0' : ((idx (ix2 e (0 : Fin 1))).toInt + ((0 : Nat) : Int)).toNat = i.val := e0
      have e1' : ((0 : Int) + (j'.val : Int)).toNat = j.val := e1
      refine ⟨by omega, Fin.ext (by omega)⟩
    · exact absurd h (by simp)
  · rintro ⟨hw, rfl⟩
    have hc : ∀ a : Fin 2, 0 ≤ (scatterRows N C E wf).start (ix2 e j') idx a + (scatterRows N C E wf).window (ix2 e j') a
        ∧ (scatterRows N C E wf).start (ix2 e j') idx a + (scatterRows N C E wf).window (ix2 e j') a
          < ((⟨2, ![N, C]⟩ : Shape).size a : Int) := by
      intro a
      match a with
      | ⟨0, _⟩ =>
        show 0 ≤ (scatterRows N C E wf).start (ix2 e j') idx 0 + (scatterRows N C E wf).window (ix2 e j') 0
          ∧ (scatterRows N C E wf).start (ix2 e j') idx 0 + (scatterRows N C E wf).window (ix2 e j') 0 < (N : Int)
        rw [h0, w0, hw]; have := i.isLt; omega
      | ⟨1, _⟩ =>
        show 0 ≤ (scatterRows N C E wf).start (ix2 e j') idx 1 + (scatterRows N C E wf).window (ix2 e j') 1
          ∧ (scatterRows N C E wf).start (ix2 e j') idx 1 + (scatterRows N C E wf).window (ix2 e j') 1 < (C : Int)
        rw [h1, w1]; have := j'.isLt; omega
    rw [dif_pos hc]
    congr 1
    funext a
    refine Fin.ext ?_
    match a with
    | ⟨0, _⟩ =>
      show ((scatterRows N C E wf).start (ix2 e j') idx 0 + (scatterRows N C E wf).window (ix2 e j') 0).toNat = i.val
      rw [h0, w0, hw]; omega
    | ⟨1, _⟩ =>
      show ((scatterRows N C E wf).start (ix2 e j') idx 1 + (scatterRows N C E wf).window (ix2 e j') 1).toNat = j'.val
      rw [h1, w1]; omega

end ScatterRows

/-- ADDING ROWS at the exact instance, read at (i, j): the operand's entry plus the sum of the update entries (e, j)
    over the rows `e` whose word is exactly `i`. -/
theorem scatterAddRows_apply {N C E w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (j : Fin C) :
    Ideal.hostScatterAdd (scatterRows N C E wf) x idx upd (ix2 i j)
      = x (ix2 i j) + ∑ e ∈ Finset.univ.filter (fun e : Fin E => (idx (ix2 e (0 : Fin 1))).toInt = (i.val : Int)),
          upd (ix2 e j) := by
  show x (ix2 i j) + ∑ u ∈ Finset.univ.filter
      (fun u => (scatterRows N C E wf).resultIdx? u idx = some (ix2 i j)), upd u = _
  congr 1
  rw [Finset.sum_filter, sum_idx2, Finset.sum_filter]
  refine Finset.sum_congr rfl (fun e _ => ?_)
  simp only [scatterRows_resultIdx]
  by_cases hw : (idx (ix2 e (0 : Fin 1))).toInt = (i.val : Int)
  · simp only [hw, true_and, if_true]
    rw [Finset.sum_ite_eq']
    simp
  · simp [hw]

end Cert.LibRows

end
-- ==== Proof.FusedColumns.lean ====
/-
  One aggregation pass over a 64-column table whose left and right halves are two 32-column tables is the two tables'
  aggregation passes side by side.

  An aggregation pass takes the table's rows at a list of source words, scales row `e` by a number that depends on `e`
  alone, and adds the scaled rows into a constant table at a list of destination words.  Each column of the result is
  computed from the same column of the table only, so splitting the columns commutes with the pass.
-/
import proofs.«408827_j68427418960020_4_alg».proof.Proof.Spec
import proofs.«408827_j68427418960020_4_alg».proof.Proof.LibRows

noncomputable section

open scoped BigOperators

namespace Cert.FusedColumns

open Idealize.ShloMosaic Idealize.ShloMosaic.ValueIdx Cert.Spec Cert.LibRows

/-- A left-half column of a side-by-side table is the left table's column. -/
theorem sideBySide_left {M : Nat} (p q : Mat M 32) (r : Fin M) (b : Fin 64) (hb : b.val < 32) :
    sideBySide p q (ix2 r b) = p (ix2 r ⟨b.val, hb⟩) := dif_pos hb

/-- A right-half column of a side-by-side table is the right table's column, 32 places to the left. -/
theorem sideBySide_right {M : Nat} (p q : Mat M 32) (r : Fin M) (b : Fin 64) (hb : ¬ b.val < 32) :
    sideBySide p q (ix2 r b) = q (ix2 r ⟨b.val - 32, by have h2 : b.val < 64 := b.isLt; omega⟩) := dif_neg hb

/-- The aggregation of a side-by-side table is the two aggregations side by side. -/
theorem aggregate_sideBySide {N E w : Nat} (hN : 0 < N)
    (wfg64 : GatherDims.WF ⟨2, ![N, 64]⟩ ⟨2, ![E, 1]⟩ ⟨2, ![E, 64]⟩ [1] [0] [] [0] [] 1 ![1, 64])
    (wfg32 : GatherDims.WF ⟨2, ![N, 32]⟩ ⟨2, ![E, 1]⟩ ⟨2, ![E, 32]⟩ [1] [0] [] [0] [] 1 ![1, 32])
    (wfs64 : ScatterDims.WF ⟨2, ![N, 64]⟩ ⟨2, ![E, 1]⟩ ⟨2, ![E, 64]⟩ [1] [0] [0] 1)
    (wfs32 : ScatterDims.WF ⟨2, ![N, 32]⟩ ⟨2, ![E, 1]⟩ ⟨2, ![E, 32]⟩ [1] [0] [0] 1)
    (p q : Mat N 32) (idxS idxD : IVec ⟨2, ![E, 1]⟩ w) (ν : Fin E → EReal)
    (s64 : Mat E 64) (s32 : Mat E 32) (hs64 : ∀ e j, s64 (ix2 e j) = ν e) (hs32 : ∀ e j, s32 (ix2 e j) = ν e)
    (z64 : Mat N 64) (z32 : Mat N 32) (c0 : EReal) (hz64 : ∀ i, z64 i = c0) (hz32 : ∀ i, z32 i = c0) :
    Ideal.hostScatterAdd (scatterRows N 64 E wfs64) z64 idxD
        (fun u => Host.gather (gatherRows N 64 E wfg64) (sideBySide p q) idxS u * s64 u)
      = sideBySide
          (Ideal.hostScatterAdd (scatterRows N 32 E wfs32) z32 idxD (fun u => Host.gather (gatherRows N 32 E wfg32) p idxS u * s32 u))
          (Ideal.hostScatterAdd (scatterRows N 32 E wfs32) z32 idxD (fun u => Host.gather (gatherRows N 32 E wfg32) q idxS u * s32 u)) := by
  funext i
  obtain ⟨a, b, rfl⟩ : ∃ (a : Fin N) (b : Fin 64), i = ix2 a b := ⟨rowOf i, colOf i, eq_ix2 i⟩
  by_cases hb : b.val < 32
  · rw [sideBySide_left _ _ a b hb, scatterAddRows_apply, scatterAddRows_apply, hz64, hz32]
    congr 1
    refine Finset.sum_congr rfl (fun e _ => ?_)
    rw [gatherRows_apply hN, gatherRows_apply hN, hs64, hs32, sideBySide_left _ _ _ b hb]
  · rw [sideBySide_right _ _ a b hb, scatterAddRows_apply, scatterAddRows_apply, hz64, hz32]
    congr 1
    refine Finset.sum_congr rfl (fun e _ => ?_)
    rw [gatherRows_apply hN, gatherRows_apply hN, hs64, hs32, sideBySide_right _ _ _ b hb]

end Cert.FusedColumns

end
-- ==== Proof.BridgeAggregate.lean ====
/-
  The kernel's one aggregation pass over the two second-layer products side by side is the reference's two aggregated
  tables side by side: both programs take the rows at the same source words, scale by the same edge normalization and add
  into a zero table at the same destination words, and every column of the result depends on its own column only.
-/
import proofs.«408827_j68427418960020_4_alg».proof.Proof.Gen.ReferenceIdeal.Read
import proofs.«408827_j68427418960020_4_alg».proof.Proof.Spec
import proofs.«408827_j68427418960020_4_alg».proof.Proof.KOps
import proofs.«408827_j68427418960020_4_alg».proof.Proof.LibRows
import proofs.«408827_j68427418960020_4_alg».proof.Proof.FusedColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Aggregate

open Idealize.ShloMosaic Idealize.ShloMosaic.TcCoe Idealize.ShloMosaic.ValueIdx
open Cert.ReferenceIdeal Cert.ReferenceIdeal.Read Cert.Spec Cert.KernelIdeal.Ops

variable (x0 : FVec Ideal S100000x128 .f32) (x1 : IVec S2x1600000 32) (x2 : FVec Ideal S100000x32 .f32)
  (x3 : FVec Ideal S128x64 .f32) (x4 : FVec Ideal S64 .f32) (x5 : FVec Ideal S64x32 .f32) (x6 : FVec Ideal S32 .f32)
  (x7 : FVec Ideal S64x32 .f32) (x8 : FVec Ideal S32 .f32)

open Cert.LibRows

/-- The three columns of (wrapped) source words are one function of the edge list. -/
theorem src58 : val_main_v58 (F := Ideal) x1 = val_main_v35 (F := Ideal) x1 := rfl
/-- The same for the log-deviation's pass. -/
theorem src75 : val_main_v75 (F := Ideal) x1 = val_main_v35 (F := Ideal) x1 := rfl
/-- The three columns of destination words are one function of the edge list. -/
theorem dst64 : val_main_v64 (F := Ideal) x1 = val_main_v41 (F := Ideal) x1 := rfl
/-- The same for the log-deviation's pass. -/
theorem dst81 : val_main_v81 (F := Ideal) x1 = val_main_v41 (F := Ideal) x1 := rfl

/-- Every entry of row `e` of the 64-column scale table is the edge's normalization. -/
theorem scale38 (e : Fin 1700000) (j : Fin 64) :
    val_main_v38 (F := Ideal) x1 (ix2 e j) = val_main_v28 (F := Ideal) x1 (ix1 e) := by
  rw [val_main_v38_apply, val_main_v37_apply]
  congr 1
  funext a; match a with | ⟨0, _⟩ => rfl
/-- Every entry of row `e` of the mean's 32-column scale table is the edge's normalization. -/
theorem scale61 (e : Fin 1700000) (j : Fin 32) :
    val_main_v61 (F := Ideal) x1 (ix2 e j) = val_main_v28 (F := Ideal) x1 (ix1 e) := by
  rw [val_main_v61_apply, val_main_v60_apply]
  congr 1
  funext a; match a with | ⟨0, _⟩ => rfl
/-- The tables the rows are added into are zero everywhere. -/
theorem zero40 (i : S100000x64.Idx) : val_main_v40 (F := Ideal) i = Ideal.ofBits .f32 0x00000000#32 := by
  rw [val_main_v40_apply]; rfl
/-- The same for the 32-column zero table. -/
theorem zero63 (i : S100000x32.Idx) : val_main_v63 (F := Ideal) i = Ideal.ofBits .f32 0x00000000#32 := by
  rw [val_main_v63_apply]; rfl

/-- The two 32-column scale tables are one function of the edge list. -/
theorem scale78_eq : val_main_v78 (F := Ideal) x1 = val_main_v61 (F := Ideal) x1 := rfl
/-- The two 32-column zero tables are one table. -/
theorem zero80_eq : val_main_v80 (F := Ideal) = val_main_v63 (F := Ideal) := rfl

/-- The aggregation of the side-by-side products is the two aggregated tables side by side. -/
theorem aggregate :
    aggregate64 x1 (sideBySide (val_main_v52 (F := Ideal) x0 x1 x3 x4 x5) (val_main_v69 (F := Ideal) x0 x1 x3 x4 x7))
      = sideBySide (val_main_v65 (F := Ideal) x0 x1 x3 x4 x5) (val_main_v82 (F := Ideal) x0 x1 x3 x4 x7) := by
  have h := Cert.FusedColumns.aggregate_sideBySide (N := 100000) (E := 1700000) (w := 32) (by decide)
    Cert.KernelIdeal.gather_S100000x64_S1700000x1_S1700000x64_1_0_n_n_0_1_164.wf Cert.ReferenceIdeal.gather_S100000x32_S1700000x1_S1700000x32_1_0_n_n_0_1_132.wf Cert.KernelIdeal.scatter_S100000x64_S1700000x1_S1700000x64_1_0_0_1.wf Cert.ReferenceIdeal.scatter_S100000x32_S1700000x1_S1700000x32_1_0_0_1.wf
    (val_main_v52 (F := Ideal) x0 x1 x3 x4 x5) (val_main_v69 (F := Ideal) x0 x1 x3 x4 x7)
    (val_main_v35 (F := Ideal) x1) (val_main_v41 (F := Ideal) x1)
    (fun e => val_main_v28 (F := Ideal) x1 (ix1 e))
    (val_main_v38 (F := Ideal) x1) (val_main_v61 (F := Ideal) x1) (scale38 x1) (scale61 x1)
    (val_main_v40 (F := Ideal)) (val_main_v63 (F := Ideal)) (Ideal.ofBits .f32 0x00000000#32) zero40 zero63
  unfold aggregate64 val_main_v65 val_main_v82 val_main_v62 val_main_v79 val_main_v59 val_main_v76
  rw [dst64, dst81, src58, src75, scale78_eq, zero80_eq]
  exact h

end Cert.Bridge.Aggregate

end
-- ==== Proof.BridgeDecode.lean ====
/-
  The decoder: padding the endpoint lists with zeros, gathering, scoring every padded edge and keeping the first 1600000
  scores gives, edge by edge, the reference's score — the logistic function of the inner product of the two endpoint
  rows of the latent, which the reference spells 1 / (1 + exp (-s)).
-/
import proofs.«408827_j68427418960020_4_alg».proof.Proof.Gen.ReferenceIdeal.Read
import proofs.«408827_j68427418960020_4_alg».proof.Proof.Spec
import proofs.«408827_j68427418960020_4_alg».proof.Proof.KOps
import proofs.«408827_j68427418960020_4_alg».proof.Proof.LibRows
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.Bridge.Decode

open Idealize.ShloMosaic Idealize.ShloMosaic.TcCoe Idealize.ShloMosaic.ValueIdx
open Cert.ReferenceIdeal Cert.ReferenceIdeal.Read Cert.Spec Cert.KernelIdeal.Ops

variable (x0 : FVec Ideal S100000x128 .f32) (x1 : IVec S2x1600000 32) (x2 : FVec Ideal S100000x32 .f32)
  (x3 : FVec Ideal S128x64 .f32) (x4 : FVec Ideal S64 .f32) (x5 : FVec Ideal S64x32 .f32) (x6 : FVec Ideal S32 .f32)
  (x7 : FVec Ideal S64x32 .f32) (x8 : FVec Ideal S32 .f32)

/-- The binary word of 1.0 denotes the real number 1. -/
theorem ofBits_one_f32 : Ideal.ofBits .f32 0x3F800000#32 = 1 := by
  simp [Ideal.ofBits, Ideal.ieee, -EReal.coe_mul]; norm_num

/-- A word wrapped into the table: a negative word has the table's length added. -/
abbrev wrapWord (w : BitVec 32) : BitVec 32 :=
  Scalar.select (IntOp.cmpi .slt w 0#32) (IntOp.addi w 100000#32) w

/-- The position of a kept edge among the padded edges. -/
abbrev padPos (e : Fin 1600000) : Fin 1605632 := ⟨e.val, by have := e.isLt; omega⟩

/-- Below 1600000 the padded list is the list. -/
theorem padWords_apply (s : IVec S1600000 32) (e : Fin 1600000) :
    padWords s (ix1 (padPos e)) = s (ix1 e) := by
  unfold padWords
  refine pad_apply_of_inside _ _ _ s _ _ _ (ix1 (padPos e)) (ix1 e) (fun a => ?_)
  match a with
  | ⟨0, _⟩ => show e.val = 0 + e.val * (0 + 1); omega

/-- The column of start indices at a kept edge is the edge's word, wrapped. -/
theorem wrapPadded_apply (s : IVec S1600000 32) (e : Fin 1600000) :
    wrapPadded s (ix2 (padPos e) (0 : Fin 1)) = wrapWord (s (ix1 e)) := by
  unfold wrapPadded
  refine (broadcastInDim_apply _ _ _ (ix2 (padPos e) (0 : Fin 1)) (ix1 (padPos e)) (fun a => ?_)).trans ?_
  · match a with
    | ⟨0, _⟩ => show e.val = if (1605632 : Nat) = 1 then 0 else e.val; rw [if_neg (by decide)]
  · rw [select_apply]
    show Scalar.select (IntOp.cmpi .slt (padWords s (ix1 (padPos e))) 0#32)
      (IntOp.addi (padWords s (ix1 (padPos e))) 100000#32) (padWords s (ix1 (padPos e))) = _
    rw [padWords_apply]

/-- The latent's row gathered for a kept edge is the row at the edge's wrapped word, clamped into the table. -/
theorem gatherPadded_apply (z : FVec Ideal S100000x32 .f32) (s : IVec S1600000 32) (e : Fin 1600000) (j : Fin 32) :
    gatherPadded z s (ix2 (padPos e) j)
      = z (ix2 (Cert.LibRows.rowAt 100000 (Nat.succ_pos _) (wrapWord (s (ix1 e)))) j) := by
  unfold gatherPadded
  refine (Cert.LibRows.gatherRows_apply (N := 100000) (C := 32) (E := 1605632) (Nat.succ_pos _)
    Cert.KernelIdeal.Facts₀.gather_S100000x32_S1605632x1_S1605632x32_1_0_n_n_0_1_132_wf z (wrapPadded s) (padPos e) j).trans ?_
  rw [wrapPadded_apply]

/-- The reference's gather of the latent's rows, read at an entry: the row at the start word, clamped into the table. -/
theorem refGather_apply (z : FVec Ideal S100000x32 .f32) (idx : IVec S1600000x1 32) (e : Fin 1600000) (j : Fin 32) :
    Host.gather gather_S100000x32_S1600000x1_S1600000x32_1_0_n_n_0_1_132 z idx (ix2 e j)
      = z (ix2 (Cert.LibRows.rowAt 100000 (Nat.succ_pos _) (idx (ix2 e (0 : Fin 1)))) j) :=
  Cert.LibRows.gatherRows_apply (N := 100000) (C := 32) (E := 1600000) (Nat.succ_pos _)
    Cert.ReferenceIdeal.Facts₀.gather_S100000x32_S1600000x1_S1600000x32_1_0_n_n_0_1_132_wf z idx e j

/-- The reference's column of source start indices at edge e is the source word, wrapped. -/
theorem refWordSrc (e : Fin 1600000) :
    val_main_v95 (F := Ideal) x1 (ix2 e (0 : Fin 1)) = wrapWord (val_main_v1 (F := Ideal) x1 (ix1 e)) := by
  have hi : idx_main_v95 (ix2 e (0 : Fin 1)) = ix1 e := by
    funext a; match a with | ⟨0, _⟩ => rfl
  rw [val_main_v95_apply, hi, val_main_v94_apply, val_main_v91_apply, val_main_v93_apply, val_main_v90_apply,
    val_main_v92_apply, val_main_c_17_apply, val_main_c_18_apply]

/-- The reference's column of destination start indices at edge e is the destination word, wrapped. -/
theorem refWordDst (e : Fin 1600000) :
    val_main_v102 (F := Ideal) x1 (ix2 e (0 : Fin 1)) = wrapWord (val_main_v3 (F := Ideal) x1 (ix1 e)) := by
  have hi : idx_main_v102 (ix2 e (0 : Fin 1)) = ix1 e := by
    funext a; match a with | ⟨0, _⟩ => rfl
  rw [val_main_v102_apply, hi, val_main_v101_apply, val_main_v98_apply, val_main_v100_apply, val_main_v97_apply,
    val_main_v99_apply, val_main_c_19_apply, val_main_c_20_apply]

/-- The reference's score of edge e: the logistic function of the inner product of the two gathered rows. -/
theorem refScore (e : Fin 1600000) :
    val_main_v111 (F := Ideal) x0 x1 x2 x3 x4 x5 x6 x7 x8 (ix1 e)
      = Ideal.logistic (∑ k : Fin 32,
          val_main_v96 (F := Ideal) x0 x1 x2 x3 x4 x5 x6 x7 x8 (ix2 e k)
            * val_main_v103 (F := Ideal) x0 x1 x2 x3 x4 x5 x6 x7 x8 (ix2 e k)) := by
  have hi : ∀ k : Fin 32, idx_main_v105 (ix1 e) k = ix2 e k := fun k => by
    funext a; match a with | ⟨0, _⟩ => rfl | ⟨1, _⟩ => rfl
  rw [val_main_v111_apply, val_main_v110_apply, val_main_cst_23_apply, val_main_v109_apply, val_main_v108_apply,
    val_main_cst_22_apply, val_main_v107_apply, val_main_v106_apply, val_main_v105_apply, val_main_cst_21_apply]
  rw [Ideal.hostDivf_def, Ideal.addf_def, Ideal.hostUnary_exp_def, Ideal.hostNegf_def, Ideal.negf_def,
    Ideal.ofBits_def, Ideal.ofBits_def, ofBits_one_f32, Ideal.ofBits_zero_f32, zero_add]
  unfold Ideal.logistic
  refine congrArg (fun t => Ideal.div 1 (1 + Ideal.exp (-t))) (Finset.sum_congr rfl fun k _ => ?_)
  rw [hi k, val_main_v104_apply, Ideal.mulf_def]

/-- An edge's score read at a position: the logistic function of the inner product of the two rows there. -/
theorem edgeScore_apply {E : Nat} (zs zd : Mat E 32) (e : Fin E) :
    edgeScore zs zd (ix1 e) = Ideal.logistic (∑ j : Fin 32, zs (ix2 e j) * zd (ix2 e j)) := rfl

/-- The kept scores of the padded edges are the reference's edge scores. -/
theorem scores :
    keepEdges (edgeScore
        (gatherPadded (val_main_v89 (F := Ideal) x0 x1 x2 x3 x4 x5 x6 x7 x8) (val_main_v1 (F := Ideal) x1))
        (gatherPadded (val_main_v89 (F := Ideal) x0 x1 x2 x3 x4 x5 x6 x7 x8) (val_main_v3 (F := Ideal) x1)))
      = val_main_v111 (F := Ideal) x0 x1 x2 x3 x4 x5 x6 x7 x8 := by
  funext e
  obtain ⟨e0, rfl⟩ : ∃ e0 : Fin 1600000, e = ix1 e0 := ⟨e 0, eq_ix1 e⟩
  rw [refScore]
  unfold val_main_v96 val_main_v103
  generalize val_main_v89 (F := Ideal) x0 x1 x2 x3 x4 x5 x6 x7 x8 = z
  unfold keepEdges
  refine (extractStridedSlice_apply _ _ _ (ix1 e0) (ix1 (padPos e0)) (fun a => ?_)).trans ?_
  · match a with
    | ⟨0, _⟩ => show e0.val = 0 + e0.val; omega
  · rw [edgeScore_apply]
    refine congrArg Ideal.logistic (Finset.sum_congr rfl fun j _ => ?_)
    rw [gatherPadded_apply, gatherPadded_apply, refGather_apply, refGather_apply, refWordSrc, refWordDst]

end Cert.Bridge.Decode

end
-- ==== Proof.lean ====
/-
  A two-layer graph-convolutional variational auto-encoder with an inner-product decoder: the Pallas program against its
  jnp reference, equal over the extended reals.

  Both programs prepare the edge list the same way (source and destination words with the self loops appended, every
  edge's symmetric normalization rsqrt(max(deg, 1)) at both endpoints) and aggregate with the same take-rows / scale /
  add-rows pass.  They differ in five places, none of which changes a value at the exact instance:
  the two matrix products run block by block in a kernel (a sum over the contracted axis either way); the first layer's
  bias, clamp at zero and row normalization run in a kernel; the mean's and the log-deviation's convolutions run as ONE
  pass over a 64-column table whose halves are the two 32-column tables (every column of an aggregation pass depends on
  its own column only, so the split commutes with the pass: no distributive law, no finiteness); the reparameterization
  runs in a kernel; and the decoder pads the endpoint lists, scores all padded edges with the logistic function, which
  IS 1 / (1 + exp (-s)) at this instance, and drops the padding.
  So the kernel program's three results are the reference's generated stages of the same nine arguments.
-/
import proofs.«408827_j68427418960020_4_alg».proof.Defs
import proofs.«408827_j68427418960020_4_alg».proof.Proof.Gen.Kernel
import proofs.«408827_j68427418960020_4_alg».proof.Proof.Gen.Kernel.Skeleton
import proofs.«408827_j68427418960020_4_alg».proof.Proof.Gen.Kernel.Launch
import proofs.«408827_j68427418960020_4_alg».proof.Proof.Gen.Kernel.Points
import proofs.«408827_j68427418960020_4_alg».proof.Proof.Gen.Kernel.Frame
import proofs.«408827_j68427418960020_4_alg».proof.Proof.Gen.KernelIdeal
import proofs.«408827_j68427418960020_4_alg».proof.Proof.Gen.KernelIdeal.Skeleton
import proofs.«408827_j68427418960020_4_alg».proof.Proof.Gen.KernelIdeal.Launch
import proofs.«408827_j68427418960020_4_alg».proof.Proof.Gen.KernelIdeal.Points
import proofs.«408827_j68427418960020_4_alg».proof.Proof.Gen.KernelIdeal.Frame
import proofs.«408827_j68427418960020_4_alg».proof.Proof.Gen.ReferenceIdeal
import proofs.«408827_j68427418960020_4_alg».proof.Proof.Gen.ReferenceIdeal.Run
import proofs.«408827_j68427418960020_4_alg».proof.Proof.Gen.ReferenceIdeal.Read
import proofs.«408827_j68427418960020_4_alg».proof.Proof.Gen.Pre_finite_inputs
import proofs.«408827_j68427418960020_4_alg».proof.Proof.Spec
import proofs.«408827_j68427418960020_4_alg».proof.Proof.KOps
import proofs.«408827_j68427418960020_4_alg».proof.Proof.KRun
import proofs.«408827_j68427418960020_4_alg».proof.Proof.KChain
import proofs.«408827_j68427418960020_4_alg».proof.Proof.BridgeLayer1
import proofs.«408827_j68427418960020_4_alg».proof.Proof.BridgeLayer2
import proofs.«408827_j68427418960020_4_alg».proof.Proof.BridgeAggregate
import proofs.«408827_j68427418960020_4_alg».proof.Proof.BridgeDecode
import Idealize.ShloMosaic.Adequacy
import Idealize.ShloMosaic.Init

noncomputable section

namespace Cert.Proof

open Idealize.ShloMosaic Idealize.ShloMosaic.TcCoe Idealize.SL.Sem
open Cert.ReferenceIdeal.Read Cert.Spec Cert.KernelIdeal.Ops

/-! ## The kernel program's three results are the reference's stages of the same arguments -/

section KernelValues

open Cert.KernelIdeal Cert.KernelIdeal.Gen Cert.KernelIdeal.Chain

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The second layer's aggregated 64-column table is the reference's two aggregated tables side by side: the first
    layer stage by stage, the product with the joined weights, then the one aggregation pass. -/
theorem table2_eq : table2 m c
    = sideBySide (val_main_v65 (F := Ideal) (x0 m c) (x1 m c) (x3 m c) (x4 m c) (x5 m c))
        (val_main_v82 (F := Ideal) (x0 m c) (x1 m c) (x3 m c) (x4 m c) (x7 m c)) := by
  show aggregate64 (x1 m c) (mm (rowNormalize (aggregate64 (x1 m c) (mm (x0 m c) (x3 m c))) (x4 m c)) (joinWeights (x5 m c) (x7 m c))) = _
  rw [Cert.Bridge.Layer1.product, Cert.Bridge.Layer1.aggregate, Cert.Bridge.Layer1.epilogue, Cert.Bridge.Layer2.product,
    Cert.Bridge.Aggregate.aggregate]

/-- The latent the kernel program draws is the reference's. -/
theorem latent_eq : latent m c
    = val_main_v89 (F := Ideal) (x0 m c) (x1 m c) (x2 m c) (x3 m c) (x4 m c) (x5 m c) (x6 m c) (x7 m c) (x8 m c) := by
  show zOf (table2 m c) (joinBiases (x6 m c) (x8 m c)) (x2 m c) = _
  rw [table2_eq, Cert.Bridge.Layer2.latent]

/-- Every weakly fair execution of the idealized kernel program terminates without a fault, its three results the
    reference's stages of the argument arrays, the arguments unchanged. -/
theorem kernel_values :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc main_v78)
            = val_main_v111 (F := Ideal) (x0 m c) (x1 m c) (x2 m c) (x3 m c) (x4 m c) (x5 m c) (x6 m c) (x7 m c) (x8 m c)
        ∧ r.2.mem ((c.tc : Thread Cert.KernelIdeal.nD Cert.KernelIdeal.τ).loc main_v60_0)
            = val_main_v68 (F := Ideal) (x0 m c) (x1 m c) (x3 m c) (x4 m c) (x5 m c) (x6 m c)
        ∧ r.2.mem ((c.tc : Thread Cert.KernelIdeal.nD Cert.KernelIdeal.τ).loc main_v60_1)
            = val_main_v85 (F := Ideal) (x0 m c) (x1 m c) (x3 m c) (x4 m c) (x7 m c) (x8 m c)
        ∧ r.2.mem ((c.tc : Thread Cert.KernelIdeal.nD Cert.KernelIdeal.τ).loc main_arg0) = m ((c.tc : Thread Cert.KernelIdeal.nD Cert.KernelIdeal.τ).loc main_arg0)
        ∧ r.2.mem ((c.tc : Thread Cert.KernelIdeal.nD Cert.KernelIdeal.τ).loc main_arg1) = m ((c.tc : Thread Cert.KernelIdeal.nD Cert.KernelIdeal.τ).loc main_arg1)
        ∧ r.2.mem ((c.tc : Thread Cert.KernelIdeal.nD Cert.KernelIdeal.τ).loc main_arg2) = m ((c.tc : Thread Cert.KernelIdeal.nD Cert.KernelIdeal.τ).loc main_arg2)
        ∧ r.2.mem ((c.tc : Thread Cert.KernelIdeal.nD Cert.KernelIdeal.τ).loc main_arg3) = m ((c.tc : Thread Cert.KernelIdeal.nD Cert.KernelIdeal.τ).loc main_arg3)
        ∧ r.2.mem ((c.tc : Thread Cert.KernelIdeal.nD Cert.KernelIdeal.τ).loc main_arg4) = m ((c.tc : Thread Cert.KernelIdeal.nD Cert.KernelIdeal.τ).loc main_arg4)
        ∧ r.2.mem ((c.tc : Thread Cert.KernelIdeal.nD Cert.KernelIdeal.τ).loc main_arg5) = m ((c.tc : Thread Cert.KernelIdeal.nD Cert.KernelIdeal.τ).loc main_arg5)
        ∧ r.2.mem ((c.tc : Thread Cert.KernelIdeal.nD Cert.KernelIdeal.τ).loc main_arg6) = m ((c.tc : Thread Cert.KernelIdeal.nD Cert.KernelIdeal.τ).loc main_arg6)
        ∧ r.2.mem ((c.tc : Thread Cert.KernelIdeal.nD Cert.KernelIdeal.τ).loc main_arg7) = m ((c.tc : Thread Cert.KernelIdeal.nD Cert.KernelIdeal.τ).loc main_arg7)
        ∧ r.2.mem ((c.tc : Thread Cert.KernelIdeal.nD Cert.KernelIdeal.τ).loc main_arg8) = m ((c.tc : Thread Cert.KernelIdeal.nD Cert.KernelIdeal.τ).loc main_arg8)) :=
  (θ_run (Cert.KernelIdeal.defs (F := Ideal)) _ _).mono (fun r h c =>
    ⟨(h c).1.trans ((result_scores m ρ c).trans (by rw [latent_eq]; exact Cert.Bridge.Decode.scores _ _ _ _ _ _ _ _ _)),
     (h c).2.1.trans ((result_mean m ρ c).trans (by rw [table2_eq]; exact Cert.Bridge.Layer2.mean _ _ _ _ _ _ _ _)),
     (h c).2.2.1.trans ((result_logdev m ρ c).trans (by rw [table2_eq]; exact Cert.Bridge.Layer2.logDeviation _ _ _ _ _ _ _ _)),
     (h c).2.2.2⟩)
    (Cert.KernelIdeal.Results.run_results (F := Ideal) m ρ)

end KernelValues

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the nine arguments both idealized programs run, and end with the same scores, mean and
    log-deviation: the reference's stages of the arguments. -/
theorem algebraic : Cert.algebraic_KernelIdeal_ReferenceIdeal := by
  intro m ρ m' ρ' _ hagree
  refine ⟨_, _, _, kernel_values m ρ, ?_⟩
  refine (θ_run Cert.ReferenceIdeal.defs _ _).mono (fun r h c => ?_) (Cert.ReferenceIdeal.Value.run (F := Ideal) m' ρ')
  obtain ⟨h1, h2, h3, hargs⟩ := h c
  obtain ⟨e0, e1, e2, e3, e4, e5, e6, e7, e8⟩ := hagree c
  refine ⟨h1.trans ?_, h2.trans ?_, h3.trans ?_, hargs⟩
  · rw [val_main_v111_eq, e0, e1, e2, e3, e4, e5, e6, e7, e8]
  · rw [val_main_v68_eq, e0, e1, e3, e4, e5, e6]
  · rw [val_main_v85_eq, e0, e1, e3, e4, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
